-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x2048 : Shape := ⟨2, ![256, 2048]⟩
abbrev S2048x2048 : Shape := ⟨2, ![2048, 2048]⟩
abbrev S_ : Shape := ⟨0, ![]⟩

class Facts : Prop where
  bcast_S_S256x2048 : S_.BroadcastsInDim S256x2048 (![] : Fin 0 → Fin S256x2048.rank)
  reducesTo_S256x2048_S_d0_1 : S256x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S256x2048 .f32) (main_arg1 : FVec F S2048x2048 .f32) : IVec S_ 1 :=
  let main_v0 : FVec F S256x2048 .f32 := Host.absf main_arg0
  let main_cst : FVec F S_ .f32 := constant S_ .f32 0x7F800000#32
  let main_v1 : FVec F S256x2048 .f32 := broadcastInDim S256x2048 ![] bcast_S_S256x2048 main_cst
  let main_v2 : IVec S256x2048 1 := cmpf .olt main_v0 main_v1
  let main_c : IVec S_ 1 := constantI S_ 1 1#1
  let main_v3 : IVec S_ 1 := (fun x v => Host.reduce IntOp.andi x v reducesTo_S256x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Kernel.lean ====
abbrev S256x2048 : Shape := ⟨2, ![256, 2048]⟩
abbrev S2048x2048 : Shape := ⟨2, ![2048, 2048]⟩
abbrev S128x2048 : Shape := ⟨2, ![128, 2048]⟩
abbrev S256x64x32 : Shape := ⟨3, ![256, 64, 32]⟩
abbrev S256x32x64 : Shape := ⟨3, ![256, 32, 64]⟩
abbrev S256x64 : Shape := ⟨2, ![256, 64]⟩
abbrev S64x32x64 : Shape := ⟨3, ![64, 32, 64]⟩
abbrev S64x64 : Shape := ⟨2, ![64, 64]⟩
abbrev S64x256x64 : Shape := ⟨3, ![64, 256, 64]⟩
abbrev S64x1x64 : Shape := ⟨3, ![64, 1, 64]⟩
abbrev S256x1x64 : Shape := ⟨3, ![256, 1, 64]⟩
abbrev S1x256x64 : Shape := ⟨3, ![1, 256, 64]⟩
abbrev S256x2112 : Shape := ⟨2, ![256, 2112]⟩

abbrev nBuf : Space → Nat
  | .hbm => 7
  | .vmem => 10
  | .smem => 0
  | _ => 0

abbrev bufTy : (tb : Table) → Fin (tcTables nBuf tb) → BufTy
  | .hbm, ⟨0, _⟩ => ⟨S256x2048, .f32⟩
  | .hbm, ⟨1, _⟩ => ⟨S2048x2048, .f32⟩
  | .hbm, ⟨2, _⟩ => ⟨S256x2048, .f32⟩
  | .hbm, ⟨3, _⟩ => ⟨S256x64x32, .f32⟩
  | .hbm, ⟨4, _⟩ => ⟨S256x32x64, .f32⟩
  | .hbm, ⟨5, _⟩ => ⟨S256x64, .f32⟩
  | .hbm, ⟨6, _⟩ => ⟨S256x2112, .f32⟩
  | .local _ .vmem, ⟨0, _⟩ => ⟨S128x2048, .f32⟩
  | .local _ .vmem, ⟨1, _⟩ => ⟨S128x2048, .f32⟩
  | .local _ .vmem, ⟨2, _⟩ => ⟨S2048x2048, .f32⟩
  | .local _ .vmem, ⟨3, _⟩ => ⟨S128x2048, .f32⟩
  | .local _ .vmem, ⟨4, _⟩ => ⟨S128x2048, .f32⟩
  | .local _ .vmem, ⟨5, _⟩ => ⟨S64x32x64, .f32⟩
  | .local _ .vmem, ⟨6, _⟩ => ⟨S64x32x64, .f32⟩
  | .local _ .vmem, ⟨7, _⟩ => ⟨S256x32x64, .f32⟩
  | .local _ .vmem, ⟨8, _⟩ => ⟨S64x64, .f32⟩
  | .local _ .vmem, ⟨9, _⟩ => ⟨S64x64, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x32x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x32x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S64x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S128x2048_S128x2048_0_0 : ∀ a, (![0, 0] : Fin 2 → Nat) a + S128x2048.size a ≤ S128x2048.size a
  h_S128x2048 : 0 < S128x2048.numel
  bitsLt_bf16_f32 : FTy.bits .bf16 < FTy.bits .f32
  inb_S2048x2048_S2048x2048_0_0 : ∀ a, (![0, 0] : Fin 2 → Nat) a + S2048x2048.size a ≤ S2048x2048.size a
  h_S2048x2048 : 0 < S2048x2048.numel
  shapeCasts_S256x2048_S256x64x32 : S256x2048.ShapeCasts S256x64x32
  transposes_S256x64x32_S256x32x64_0_2_1 : S256x64x32.Transposes [0, 2, 1] S256x32x64
  inb_S64x32x64_S64x1x64_0_0_0 : ∀ a, (![0, 0, 0] : Fin 3 → Nat) a + S64x1x64.size a ≤ S64x32x64.size a
  h_S64x1x64 : 0 < S64x1x64.numel
  shapeCasts_S64x1x64_S64x64 : S64x1x64.ShapeCasts S64x64
  inb_S256x32x64_S256x1x64_0_0_0 : ∀ a, (![0, 0, 0] : Fin 3 → Nat) a + S256x1x64.size a ≤ S256x32x64.size a
  h_S256x1x64 : 0 < S256x1x64.numel
  shapeCasts_S256x1x64_S256x64 : S256x1x64.ShapeCasts S256x64
  shapeCasts_S64x64_S64x1x64 : S64x64.ShapeCasts S64x1x64
  shapeCasts_S256x64_S1x256x64 : S256x64.ShapeCasts S1x256x64
  broadcasts_S64x1x64_S64x256x64 : S64x1x64.Broadcasts S64x256x64
  broadcasts_S1x256x64_S64x256x64 : S1x256x64.Broadcasts S64x256x64
  inb_S64x32x64_S64x1x64_0_1_0 : ∀ a, (![0, 1, 0] : Fin 3 → Nat) a + S64x1x64.size a ≤ S64x32x64.size a
  inb_S256x32x64_S256x1x64_0_1_0 : ∀ a, (![0, 1, 0] : Fin 3 → Nat) a + S256x1x64.size a ≤ S256x32x64.size a
  inb_S64x32x64_S64x1x64_0_2_0 : ∀ a, (![0, 2, 0] : Fin 3 → Nat) a + S64x1x64.size a ≤ S64x32x64.size a
  inb_S256x32x64_S256x1x64_0_2_0 : ∀ a, (![0, 2, 0] : Fin 3 → Nat) a + S256x1x64.size a ≤ S256x32x64.size a
  inb_S64x32x64_S64x1x64_0_3_0 : ∀ a, (![0, 3, 0] : Fin 3 → Nat) a + S64x1x64.size a ≤ S64x32x64.size a
  inb_S256x32x64_S256x1x64_0_3_0 : ∀ a, (![0, 3, 0] : Fin 3 → Nat) a + S256x1x64.size a ≤ S256x32x64.size a
  inb_S64x32x64_S64x1x64_0_4_0 : ∀ a, (![0, 4, 0] : Fin 3 → Nat) a + S64x1x64.size a ≤ S64x32x64.size a
  inb_S256x32x64_S256x1x64_0_4_0 : ∀ a, (![0, 4, 0] : Fin 3 → Nat) a + S256x1x64.size a ≤ S256x32x64.size a
  inb_S64x32x64_S64x1x64_0_5_0 : ∀ a, (![0, 5, 0] : Fin 3 → Nat) a + S64x1x64.size a ≤ S64x32x64.size a
  inb_S256x32x64_S256x1x64_0_5_0 : ∀ a, (![0, 5, 0] : Fin 3 → Nat) a + S256x1x64.size a ≤ S256x32x64.size a
  inb_S64x32x64_S64x1x64_0_6_0 : ∀ a, (![0, 6, 0] : Fin 3 → Nat) a + S64x1x64.size a ≤ S64x32x64.size a
  inb_S256x32x64_S256x1x64_0_6_0 : ∀ a, (![0, 6, 0] : Fin 3 → Nat) a + S256x1x64.size a ≤ S256x32x64.size a
  inb_S64x32x64_S64x1x64_0_7_0 : ∀ a, (![0, 7, 0] : Fin 3 → Nat) a + S64x1x64.size a ≤ S64x32x64.size a
  inb_S256x32x64_S256x1x64_0_7_0 : ∀ a, (![0, 7, 0] : Fin 3 → Nat) a + S256x1x64.size a ≤ S256x32x64.size a
  inb_S64x32x64_S64x1x64_0_8_0 : ∀ a, (![0, 8, 0] : Fin 3 → Nat) a + S64x1x64.size a ≤ S64x32x64.size a
  inb_S256x32x64_S256x1x64_0_8_0 : ∀ a, (![0, 8, 0] : Fin 3 → Nat) a + S256x1x64.size a ≤ S256x32x64.size a
  inb_S64x32x64_S64x1x64_0_9_0 : ∀ a, (![0, 9, 0] : Fin 3 → Nat) a + S64x1x64.size a ≤ S64x32x64.size a
  inb_S256x32x64_S256x1x64_0_9_0 : ∀ a, (![0, 9, 0] : Fin 3 → Nat) a + S256x1x64.size a ≤ S256x32x64.size a
  inb_S64x32x64_S64x1x64_0_10_0 : ∀ a, (![0, 10, 0] : Fin 3 → Nat) a + S64x1x64.size a ≤ S64x32x64.size a
  inb_S256x32x64_S256x1x64_0_10_0 : ∀ a, (![0, 10, 0] : Fin 3 → Nat) a + S256x1x64.size a ≤ S256x32x64.size a
  inb_S64x32x64_S64x1x64_0_11_0 : ∀ a, (![0, 11, 0] : Fin 3 → Nat) a + S64x1x64.size a ≤ S64x32x64.size a
  inb_S256x32x64_S256x1x64_0_11_0 : ∀ a, (![0, 11, 0] : Fin 3 → Nat) a + S256x1x64.size a ≤ S256x32x64.size a
  inb_S64x32x64_S64x1x64_0_12_0 : ∀ a, (![0, 12, 0] : Fin 3 → Nat) a + S64x1x64.size a ≤ S64x32x64.size a
  inb_S256x32x64_S256x1x64_0_12_0 : ∀ a, (![0, 12, 0] : Fin 3 → Nat) a + S256x1x64.size a ≤ S256x32x64.size a
  inb_S64x32x64_S64x1x64_0_13_0 : ∀ a, (![0, 13, 0] : Fin 3 → Nat) a + S64x1x64.size a ≤ S64x32x64.size a
  inb_S256x32x64_S256x1x64_0_13_0 : ∀ a, (![0, 13, 0] : Fin 3 → Nat) a + S256x1x64.size a ≤ S256x32x64.size a
  inb_S64x32x64_S64x1x64_0_14_0 : ∀ a, (![0, 14, 0] : Fin 3 → Nat) a + S64x1x64.size a ≤ S64x32x64.size a
  inb_S256x32x64_S256x1x64_0_14_0 : ∀ a, (![0, 14, 0] : Fin 3 → Nat) a + S256x1x64.size a ≤ S256x32x64.size a
  inb_S64x32x64_S64x1x64_0_15_0 : ∀ a, (![0, 15, 0] : Fin 3 → Nat) a + S64x1x64.size a ≤ S64x32x64.size a
  inb_S256x32x64_S256x1x64_0_15_0 : ∀ a, (![0, 15, 0] : Fin 3 → Nat) a + S256x1x64.size a ≤ S256x32x64.size a
  inb_S64x32x64_S64x1x64_0_16_0 : ∀ a, (![0, 16, 0] : Fin 3 → Nat) a + S64x1x64.size a ≤ S64x32x64.size a
  inb_S256x32x64_S256x1x64_0_16_0 : ∀ a, (![0, 16, 0] : Fin 3 → Nat) a + S256x1x64.size a ≤ S256x32x64.size a
  inb_S64x32x64_S64x1x64_0_17_0 : ∀ a, (![0, 17, 0] : Fin 3 → Nat) a + S64x1x64.size a ≤ S64x32x64.size a
  inb_S256x32x64_S256x1x64_0_17_0 : ∀ a, (![0, 17, 0] : Fin 3 → Nat) a + S256x1x64.size a ≤ S256x32x64.size a
  inb_S64x32x64_S64x1x64_0_18_0 : ∀ a, (![0, 18, 0] : Fin 3 → Nat) a + S64x1x64.size a ≤ S64x32x64.size a
  inb_S256x32x64_S256x1x64_0_18_0 : ∀ a, (![0, 18, 0] : Fin 3 → Nat) a + S256x1x64.size a ≤ S256x32x64.size a
  inb_S64x32x64_S64x1x64_0_19_0 : ∀ a, (![0, 19, 0] : Fin 3 → Nat) a + S64x1x64.size a ≤ S64x32x64.size a
  inb_S256x32x64_S256x1x64_0_19_0 : ∀ a, (![0, 19, 0] : Fin 3 → Nat) a + S256x1x64.size a ≤ S256x32x64.size a
  inb_S64x32x64_S64x1x64_0_20_0 : ∀ a, (![0, 20, 0] : Fin 3 → Nat) a + S64x1x64.size a ≤ S64x32x64.size a
  inb_S256x32x64_S256x1x64_0_20_0 : ∀ a, (![0, 20, 0] : Fin 3 → Nat) a + S256x1x64.size a ≤ S256x32x64.size a
  inb_S64x32x64_S64x1x64_0_21_0 : ∀ a, (![0, 21, 0] : Fin 3 → Nat) a + S64x1x64.size a ≤ S64x32x64.size a
  inb_S256x32x64_S256x1x64_0_21_0 : ∀ a, (![0, 21, 0] : Fin 3 → Nat) a + S256x1x64.size a ≤ S256x32x64.size a
  inb_S64x32x64_S64x1x64_0_22_0 : ∀ a, (![0, 22, 0] : Fin 3 → Nat) a + S64x1x64.size a ≤ S64x32x64.size a
  inb_S256x32x64_S256x1x64_0_22_0 : ∀ a, (![0, 22, 0] : Fin 3 → Nat) a + S256x1x64.size a ≤ S256x32x64.size a
  inb_S64x32x64_S64x1x64_0_23_0 : ∀ a, (![0, 23, 0] : Fin 3 → Nat) a + S64x1x64.size a ≤ S64x32x64.size a
  inb_S256x32x64_S256x1x64_0_23_0 : ∀ a, (![0, 23, 0] : Fin 3 → Nat) a + S256x1x64.size a ≤ S256x32x64.size a
  inb_S64x32x64_S64x1x64_0_24_0 : ∀ a, (![0, 24, 0] : Fin 3 → Nat) a + S64x1x64.size a ≤ S64x32x64.size a
  inb_S256x32x64_S256x1x64_0_24_0 : ∀ a, (![0, 24, 0] : Fin 3 → Nat) a + S256x1x64.size a ≤ S256x32x64.size a
  inb_S64x32x64_S64x1x64_0_25_0 : ∀ a, (![0, 25, 0] : Fin 3 → Nat) a + S64x1x64.size a ≤ S64x32x64.size a
  inb_S256x32x64_S256x1x64_0_25_0 : ∀ a, (![0, 25, 0] : Fin 3 → Nat) a + S256x1x64.size a ≤ S256x32x64.size a
  inb_S64x32x64_S64x1x64_0_26_0 : ∀ a, (![0, 26, 0] : Fin 3 → Nat) a + S64x1x64.size a ≤ S64x32x64.size a
  inb_S256x32x64_S256x1x64_0_26_0 : ∀ a, (![0, 26, 0] : Fin 3 → Nat) a + S256x1x64.size a ≤ S256x32x64.size a
  inb_S64x32x64_S64x1x64_0_27_0 : ∀ a, (![0, 27, 0] : Fin 3 → Nat) a + S64x1x64.size a ≤ S64x32x64.size a
  inb_S256x32x64_S256x1x64_0_27_0 : ∀ a, (![0, 27, 0] : Fin 3 → Nat) a + S256x1x64.size a ≤ S256x32x64.size a
  inb_S64x32x64_S64x1x64_0_28_0 : ∀ a, (![0, 28, 0] : Fin 3 → Nat) a + S64x1x64.size a ≤ S64x32x64.size a
  inb_S256x32x64_S256x1x64_0_28_0 : ∀ a, (![0, 28, 0] : Fin 3 → Nat) a + S256x1x64.size a ≤ S256x32x64.size a
  inb_S64x32x64_S64x1x64_0_29_0 : ∀ a, (![0, 29, 0] : Fin 3 → Nat) a + S64x1x64.size a ≤ S64x32x64.size a
  inb_S256x32x64_S256x1x64_0_29_0 : ∀ a, (![0, 29, 0] : Fin 3 → Nat) a + S256x1x64.size a ≤ S256x32x64.size a
  inb_S64x32x64_S64x1x64_0_30_0 : ∀ a, (![0, 30, 0] : Fin 3 → Nat) a + S64x1x64.size a ≤ S64x32x64.size a
  inb_S256x32x64_S256x1x64_0_30_0 : ∀ a, (![0, 30, 0] : Fin 3 → Nat) a + S256x1x64.size a ≤ S256x32x64.size a
  inb_S64x32x64_S64x1x64_0_31_0 : ∀ a, (![0, 31, 0] : Fin 3 → Nat) a + S64x1x64.size a ≤ S64x32x64.size a
  inb_S256x32x64_S256x1x64_0_31_0 : ∀ a, (![0, 31, 0] : Fin 3 → Nat) a + S256x1x64.size a ≤ S256x32x64.size a
  reduces_S64x256x64_S64x64 : S64x256x64.Reduces [1] S64x64
  inb_S64x64_S64x64_0_0 : ∀ a, (![0, 0] : Fin 2 → Nat) a + S64x64.size a ≤ S64x64.size a
  h_S64x64 : 0 < S64x64.numel
  concatenates_S256x2048_S256x64_S256x2112_d1 : Shape.Concatenates [S256x2048, S256x64] S256x2112 1
  dot_S128x2048_S2048x2048_S128x2048_1_0_0_1_n_n_wf : DotDims.WF S128x2048 S2048x2048 S128x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S256x2048.size a
  hwx0_0 : ∀ i : grid0.Coords, EltTy.bits .f32 = 32 ∨ (Rect.block (s := S256x2048) S128x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .f32 = 32 ∨ (Rect.block (s := S2048x2048) S2048x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x2048.size a ≤ S256x2048.size a
  hwx0_2 : ∀ i : grid0.Coords, EltTy.bits .f32 = 32 ∨ (Rect.block (s := S256x2048) S128x2048.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x32x64.size a ≤ S256x32x64.size a
  hwx1_0 : ∀ i : grid1.Coords, EltTy.bits .f32 = 32 ∨ (Rect.block (s := S256x32x64) S64x32x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x32x64.size a ≤ S256x32x64.size a
  hwx1_1 : ∀ i : grid1.Coords, EltTy.bits .f32 = 32 ∨ (Rect.block (s := S256x32x64) S256x32x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S256x64.size a
  hwx1_2 : ∀ i : grid1.Coords, EltTy.bits .f32 = 32 ∨ (Rect.block (s := S256x64) S64x64.size (cc1_transform_2 i) (hinb1_2 i)).WholeWords (EltTy.packing .f32)

variable [Facts₀]

def dot_S128x2048_S2048x2048_S128x2048_1_0_0_1_n_n : DotDims S128x2048 S2048x2048 S128x2048 where
  lhsContracting := [1]
  rhsContracting := [0]
  lhsNonContracting := [0]
  rhsNonContracting := [1]
  lhsBatch := []
  rhsBatch := []
  wf := dot_S128x2048_S2048x2048_S128x2048_1_0_0_1_n_n_wf

abbrev win0_0 : Pipeline.Window sig grid0 :=
  Pipeline.Window.ofSpec (Memref.whole main_arg0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S64x32x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S256x32x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S64x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S256x2048 : Shape := ⟨2, ![256, 2048]⟩
abbrev S2048x2048 : Shape := ⟨2, ![2048, 2048]⟩
abbrev S256x64x32 : Shape := ⟨3, ![256, 64, 32]⟩
abbrev S1x256x64x32 : Shape := ⟨4, ![1, 256, 64, 32]⟩
abbrev S256x1x64x32 : Shape := ⟨4, ![256, 1, 64, 32]⟩
abbrev S256x256x64x32 : Shape := ⟨4, ![256, 256, 64, 32]⟩
abbrev S_ : Shape := ⟨0, ![]⟩
abbrev S256x256x64 : Shape := ⟨3, ![256, 256, 64]⟩
abbrev S256x64 : Shape := ⟨2, ![256, 64]⟩
abbrev S256x2112 : Shape := ⟨2, ![256, 2112]⟩

abbrev nBuf : Space → Nat
  | .hbm => 17
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048x2048, .f32⟩
  | .hbm, ⟨2, _⟩ => ⟨S256x2048, .f32⟩
  | .hbm, ⟨3, _⟩ => ⟨S256x64x32, .f32⟩
  | .hbm, ⟨4, _⟩ => ⟨S1x256x64x32, .f32⟩
  | .hbm, ⟨5, _⟩ => ⟨S256x1x64x32, .f32⟩
  | .hbm, ⟨6, _⟩ => ⟨S256x256x64x32, .f32⟩
  | .hbm, ⟨7, _⟩ => ⟨S256x256x64x32, .f32⟩
  | .hbm, ⟨8, _⟩ => ⟨S256x256x64x32, .f32⟩
  | .hbm, ⟨9, _⟩ => ⟨S256x256x64x32, .f32⟩
  | .hbm, ⟨10, _⟩ => ⟨S_, .f32⟩
  | .hbm, ⟨11, _⟩ => ⟨S256x256x64, .f32⟩
  | .hbm, ⟨12, _⟩ => ⟨S256x256x64, .f32⟩
  | .hbm, ⟨13, _⟩ => ⟨S256x256x64, .f32⟩
  | .hbm, ⟨14, _⟩ => ⟨S_, .f32⟩
  | .hbm, ⟨15, _⟩ => ⟨S256x64, .f32⟩
  | .hbm, ⟨16, _⟩ => ⟨S256x2112, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]

class Facts₀ : Prop where
  shapeCasts_S256x2048_S256x64x32 : S256x2048.ShapeCasts S256x64x32
  bcast_S256x64x32_S1x256x64x32_1_2_3 : S256x64x32.BroadcastsInDim S1x256x64x32 (![1, 2, 3] : Fin 3 → Fin S1x256x64x32.rank)
  bcast_S256x64x32_S256x1x64x32_0_2_3 : S256x64x32.BroadcastsInDim S256x1x64x32 (![0, 2, 3] : Fin 3 → Fin S256x1x64x32.rank)
  bcast_S1x256x64x32_S256x256x64x32_0_1_2_3 : S1x256x64x32.BroadcastsInDim S256x256x64x32 (![0, 1, 2, 3] : Fin 4 → Fin S256x256x64x32.rank)
  bcast_S256x1x64x32_S256x256x64x32_0_1_2_3 : S256x1x64x32.BroadcastsInDim S256x256x64x32 (![0, 1, 2, 3] : Fin 4 → Fin S256x256x64x32.rank)
  reducesTo_S256x256x64x32_S256x256x64_d3 : S256x256x64x32.ReducesTo [3] S256x256x64
  h_S_ : 0 < S_.numel
  reducesTo_S256x256x64_S256x64_d0 : S256x256x64.ReducesTo [0] S256x64
  concatenates_S256x2048_S256x64_S256x2112_d1 : Shape.Concatenates [S256x2048, S256x64] S256x2112 1
  dot_S256x2048_S2048x2048_S256x2048_1_0_0_1_n_n_wf : DotDims.WF S256x2048 S2048x2048 S256x2048 [1] [0] [0] [1] [] []

variable [Facts₀]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

class Facts : Prop extends Facts₀ where

variable [Facts]
-- ==== Proof.KI.Region0.lean ====
/- The first kernel region: the projection. On a grid of two points, point `t` stages rows
   `128 t … 128 t + 127` of the left operand and the whole right operand, multiplies them on the
   matrix unit into a zero accumulator, and writes the product back as rows `128 t …` of the result.
   This module states what the body leaves in each staging buffer (the proof data), proves the body's
   triple by symbolic execution, and from it the body obligation at every grid point — for any
   contents `V` of the core's buffers at the region's entry and at any float instance. -/
import proofs.«162574_j79843442033274_1_alg».proof.Proof.Gen.KernelIdeal.Launch
import proofs.«162574_j79843442033274_1_alg».proof.Proof.Gen.KernelIdeal.Skeleton
import proofs.«162574_j79843442033274_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds its row block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right operand's staging buffer holds the whole operand at every point: it is fetched at the first
    point only, its block index never moves, and the body leaves it in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole left block, the whole right operand, the whole result block. -/
abbrev rL0 : Rect S128x2048 := Rect.unit (s := S128x2048) ![0, 0] S128x2048.size inb_S128x2048_S128x2048_0_0
abbrev rR0 : Rect S2048x2048 := Rect.unit (s := S2048x2048) ![0, 0] S2048x2048.size inb_S2048x2048_S2048x2048_0_0

/-! ## What the body leaves in the result's staging buffer -/

/-- The result block after the body: its one store, the product of the two loaded operands. -/
def out0_2 (x0 : Vec F S128x2048 .f32) (x1 : Vec F S2048x2048 .f32) : Vec F S128x2048 .f32 :=
  View.canon [⟨rL0, k0_pay1 (View.ld x0 rL0) (View.ld x1 rR0)⟩]

/-- The one store covers the block. -/
theorem cover0_2 (p0 : Vec F S128x2048 .f32) (y : S128x2048.Idx) :
    ∃ pc ∈ ([⟨rL0, p0⟩] : List (View.Piece (Elt F) S128x2048 .f32)), y ∈ pc.1.set :=
  View.cover_of_tiled [⟨rL0, p0⟩] S128x2048.size (by rfl) y

/-! ## The body's triple -/

set_option maxHeartbeats 1000000 in
/-- The body on whole staging memrefs — the operands' at contents `x0`, `x1`, the result's at anything — runs to a
    state with the operands as they were and the result at `out0_2 x0 x1`. -/
theorem sound_kernel0 (c : Dev nD) (E : Set ℕ) (i : grid0.Coords) (arg1 : Memref sig .tc .vmem S128x2048 .f32) (harg1 : arg1.IsWhole)
    (arg2 : Memref sig .tc .vmem S2048x2048 .f32) (harg2 : arg2.IsWhole) (arg3 : Memref sig .tc .vmem S128x2048 .f32) (harg3 : arg3.IsWhole)
    (x0 : Vec F S128x2048 .f32) (x1 : Vec F S2048x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- The proof data on core `c`: the arrays as the region finds them; after the body at point `t` each operand's
    buffer at its block and the result's at `out0_2` of the two; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the operands' buffers hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/- The second kernel region: pairwise L1 distances, their negated exponentials, and the sum over the
   other samples. On a grid of four points, point `t` stages samples `64 t … 64 t + 63` of the
   re-laid features (one window) and ALL samples of the same array (a second window on the same array),
   accumulates `|a_i − a_j|` over the 32 feature coordinates one coordinate slab at a time, and writes
   `Σ_j exp(0 − accum)` back as rows `64 t …` of the result. This module states what the body leaves
   in each staging buffer, proves the body's triple by symbolic execution, and from it the body
   obligation at every grid point — for any entry contents `V` and at any float instance. The two
   input windows read ONE array, so each holds half of it (`q`). -/
import proofs.«162574_j79843442033274_1_alg».proof.Proof.Gen.KernelIdeal.Launch
import proofs.«162574_j79843442033274_1_alg».proof.Proof.Gen.KernelIdeal.Skeleton
import proofs.«162574_j79843442033274_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query samples' staging buffer holds its block of 64 samples at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The key samples' staging buffer holds all samples at every point: fetched at the first point only, its block
    index never moves, and the body leaves it in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

theorem inbA (k : ℕ) (hk : k < 32) : ∀ a, (![0, k, 0] : Fin 3 → Nat) a + S64x1x64.size a ≤ S64x32x64.size a := by
  intro a; fin_cases a <;> simp <;> omega
theorem inbB (k : ℕ) (hk : k < 32) : ∀ a, (![0, k, 0] : Fin 3 → Nat) a + S256x1x64.size a ≤ S256x32x64.size a := by
  intro a; fin_cases a <;> simp <;> omega

/-- Coordinate slab `k` of the 64 query samples, and of all 256 key samples. -/
abbrev rA (k : ℕ) (hk : k < 32) : Rect S64x32x64 := Rect.unit (s := S64x32x64) ![0, k, 0] S64x1x64.size (inbA k hk)
abbrev rB (k : ℕ) (hk : k < 32) : Rect S256x32x64 := Rect.unit (s := S256x32x64) ![0, k, 0] S256x1x64.size (inbB k hk)
/-- The whole result block. -/
abbrev rO1 : Rect S64x64 := Rect.unit (s := S64x64) ![0, 0] S64x64.size inb_S64x64_S64x64_0_0

/-! ## What the body leaves in the result's staging buffer -/

/-- The value the body stores, from the two staged blocks: the printed body's payloads composed in program
    order over the 64 slab loads (`a k` the query slab, `b k` the key slab of coordinate `k`). -/
def stored1 (x0 : Vec F S64x32x64 .f32) (x1 : Vec F S256x32x64 .f32) : FVec F S64x64 .f32 :=
  let a (k : ℕ) (hk : k < 32) : Vec F S64x1x64 .f32 := View.ld x0 (rA k hk)
  let b (k : ℕ) (hk : k < 32) : Vec F S256x1x64 .f32 := View.ld x1 (rB k hk)
  let v33 := k1_pay2 (a 0 (by decide)) (b 0 (by decide)) (a 1 (by decide)) (b 1 (by decide)) (a 2 (by decide)) (b 2 (by decide))
  let v35 := k1_pay3 (a 3 (by decide))
  let v66 := k1_pay4 v33 v35 (b 3 (by decide)) (a 4 (by decide)) (b 4 (by decide)) (a 5 (by decide)) (b 5 (by decide))
  let v75 := k1_pay5 (a 6 (by decide)) (b 6 (by decide))
  let v110 := k1_pay6 v66 v75 (a 7 (by decide)) (b 7 (by decide)) (a 8 (by decide)) (b 8 (by decide)) (a 9 (by decide)) (b 9 (by decide))
  let v112 := k1_pay7 (a 10 (by decide))
  let v143 := k1_pay8 v110 v112 (b 10 (by decide)) (a 11 (by decide)) (b 11 (by decide)) (a 12 (by decide)) (b 12 (by decide))
  let v153 := k1_pay9 (a 13 (by decide)) (b 13 (by decide))
  let v187 := k1_pay10 v143 v153 (a 14 (by decide)) (b 14 (by decide)) (a 15 (by decide)) (b 15 (by decide)) (a 16 (by decide)) (b 16 (by decide))
  let v189 := k1_pay11 (a 17 (by decide))
  let v231 := k1_pay12 v187 v189 (b 17 (by decide)) (a 18 (by decide)) (b 18 (by decide)) (a 19 (by decide)) (b 19 (by decide)) (a 20 (by decide)) (b 20 (by decide))
  let v264 := k1_pay13 v231 (a 21 (by decide)) (b 21 (by decide)) (a 22 (by decide)) (b 22 (by decide)) (a 23 (by decide)) (b 23 (by decide))
  let v266 := k1_pay14 (a 24 (by decide))
  let v308 := k1_pay15 v264 v266 (b 24 (by decide)) (a 25 (by decide)) (b 25 (by decide)) (a 26 (by decide)) (b 26 (by decide)) (a 27 (by decide)) (b 27 (by decide))
  let v341 := k1_pay16 v308 (a 28 (by decide)) (b 28 (by decide)) (a 29 (by decide)) (b 29 (by decide)) (a 30 (by decide)) (b 30 (by decide))
  let v343 := k1_pay17 (a 31 (by decide))
  let v345 := k1_pay18 (b 31 (by decide))
  k1_pay1 v341 v343 v345

/-- The result block after the body: its one store. -/
def out1_2 (x0 : Vec F S64x32x64 .f32) (x1 : Vec F S256x32x64 .f32) : Vec F S64x64 .f32 :=
  View.canon [⟨rO1, stored1 x0 x1⟩]

/-- The one store covers the block. -/
theorem cover1_2 (p0 : Vec F S64x64 .f32) (y : S64x64.Idx) :
    ∃ pc ∈ ([⟨rO1, p0⟩] : List (View.Piece (Elt F) S64x64 .f32)), y ∈ pc.1.set :=
  View.cover_of_tiled [⟨rO1, p0⟩] S64x64.size (by rfl) y

/-! ## The body's triple -/

set_option maxHeartbeats 4000000 in
/-- The body on whole staging memrefs — the two inputs' at contents `x0`, `x1`, the result's at anything — runs to a
    state with the inputs as they were and the result at `out1_2 x0 x1`. -/
theorem sound_kernel1 (c : Dev nD) (E : Set ℕ) (i : grid1.Coords) (arg1 : Memref sig .tc .vmem S64x32x64 .f32) (harg1 : arg1.IsWhole)
    (arg2 : Memref sig .tc .vmem S256x32x64 .f32) (harg2 : arg2.IsWhole) (arg3 : Memref sig .tc .vmem S64x64 .f32) (harg3 : arg3.IsWhole)
    (x0 : Vec F S64x32x64 .f32) (x1 : Vec F S256x32x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__l1_kernel i arg1 harg1 arg2 harg2 arg3 harg3) K := by
  simp only [cc1__l1_kernel_eq_skeleton]; unfold cc1__l1_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The region's proof data -/

/-- The proof data on core `c`: the arrays as the region finds them; after the body at point `t` each input's
    buffer at its block and the result's at `out1_2` of the two; the invariant the scoped rest and the generator
    register, untouched; nothing owed. The two input windows read one array: the first holds its left half share,
    the second its right half. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => (fullShare : PosShare TreeShare).left
    | ⟨1, _⟩ => (fullShare : PosShare TreeShare).right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/- The whole run of the program: @main is the first kernel region, the host stretch that re-lays its
   result, the second kernel region, and the host stretch that joins the input rows to its result.
   The contents of the core's buffers at each boundary are a fold from the launch memory (`W0` … `W4`):
   a region changes only its result array, to what its write-backs leave; a host stretch is its
   operations' fold. Each region is a segment record over the thread state "every unscoped buffer at
   the boundary's contents, the generator register at some state, nothing owed"; the second region's
   two input windows read ONE array, whose full share is split in halves between them at entry and
   joined again at exit. The launch theorem then gives: every weakly fair execution terminates, and
   every unscoped buffer ends at `W4`. -/
import proofs.«162574_j79843442033274_1_alg».proof.Proof.Gen.KernelIdeal.Launch
import proofs.«162574_j79843442033274_1_alg».proof.Proof.Gen.KernelIdeal.Skeleton
import proofs.«162574_j79843442033274_1_alg».proof.Proof.Gen.KernelIdeal.Points
import proofs.«162574_j79843442033274_1_alg».proof.Proof.KI.Region0
import proofs.«162574_j79843442033274_1_alg».proof.Proof.KI.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m ((c : Dev nD), b)
abbrev V0 : (c : Dev nD) → (b : Ref sig .tc) → Buf (Elt F) ((c : Thread nD τ).loc b) := fun c b => W0 m c b
/-- After the first region: the projection's array at what the write-backs leave, every other buffer as launched. -/
def W1 (c : Dev nD) : Valuation τ sig (Elt F) :=
  Function.update (W0 m c) (Proc.devRef .tc main_v0) ((dat0 (V0 m) c).arrAt 2 cfg0.N)
abbrev V1 : (c : Dev nD) → (b : Ref sig .tc) → Buf (Elt F) ((c : Thread nD τ).loc b) := fun c b => W1 m c b
/-- After the re-laying host stretch. -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- After the second region: the similarities' array at what the write-backs leave, every other buffer as entered. -/
def W3 (c : Dev nD) : Valuation τ sig (Elt F) :=
  Function.update (W2 m c) (Proc.devRef .tc main_v3) ((dat1 (V2 m) c).arrAt 2 cfg1.N)
abbrev V3 : (c : Dev nD) → (b : Ref sig .tc) → Buf (Elt F) ((c : Thread nD τ).loc b) := fun c b => W3 m c b
/-- After the joining host stretch: the end. -/
abbrev W4 : Dev nD → Valuation τ sig (Elt F) := fun c => StableHlo.after hostOps2 (W3 m c)

theorem W1_main_v0 (c : Dev nD) : W1 m c (Proc.devRef .tc main_v0) = (dat0 (V0 m) c).arrAt 2 cfg0.N := by
  unfold W1; exact Function.update_self ..
theorem W1_of_ne (c : Dev nD) (b : Ref sig .tc) (hb : b ≠ main_v0) : W1 m c (Proc.devRef .tc b) = W0 m c (Proc.devRef .tc b) := by
  unfold W1; exact Function.update_of_ne (StableHlo.devRef_ne_of_ne hb) ..
theorem W3_main_v3 (c : Dev nD) : W3 m c (Proc.devRef .tc main_v3) = (dat1 (V2 m) c).arrAt 2 cfg1.N := by
  unfold W3; exact Function.update_self ..
theorem W3_of_ne (c : Dev nD) (b : Ref sig .tc) (hb : b ≠ main_v3) : W3 m c (Proc.devRef .tc b) = W2 m c (Proc.devRef .tc b) := by
  unfold W3; exact Function.update_of_ne (StableHlo.devRef_ne_of_ne hb) ..

/-! ## The proof data family and the thread state -/

/-- No pallas_call of this program has a prefetched table. -/
abbrev adm : (p : Fin 2) → (pcfgs (F := F) p).Adm := fun p => (cfgs p).toPCfg_adm
/-- Every region's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's
    dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `W4`, the generator register at some state. -/
abbrev Tₙ (c : Dev nD) : sProp 𝕄 := iprop(StableHlo.held (c : Thread nD τ) (Pipeline.ucRefs τ sig) (W4 m c) ∗ ∃ r, prngReg c r)

/-! ## The first region as a segment -/

/-- At the first region's exit each of its arrays holds what the pipeline leaves: the operands what they held,
    the result the write-backs. -/
theorem hF0 (c : Dev nD) (w : Fin cfg0.W) : (dat0 (V0 m) c).arrAt w cfg0.N = V1 m c (Pipeline.arrRef spec0 w) :=
  match w with
  | ⟨0, _⟩ => (((dat0 (V0 m) c).arrAt_in 0 rfl _).trans (A_eq0 (V0 m) c 0)).trans (W1_of_ne m c main_arg0 (by decide)).symm
  | ⟨1, _⟩ => (((dat0 (V0 m) c).arrAt_in 1 rfl _).trans (A_eq0 (V0 m) c 1)).trans (W1_of_ne m c main_arg1 (by decide)).symm
  | ⟨2, _⟩ => (W1_main_v0 m c).symm
theorem hrest0 (c : Dev nD) : ∀ b, b ∉ Finset.univ.image (Pipeline.arrRef spec0) → V1 m c b = V0 m c b :=
  fun b hb => W1_of_ne m c b fun e => hb (Finset.mem_image.mpr ⟨2, Finset.mem_univ _, e.symm⟩)

set_option backward.isDefEq.respectTransparency.types false in
/-- The first region over the thread state: entered from every unscoped buffer at `W0`, left at `W1`. Its arrays
    are split out of the unscoped buffers and put back at the exit contents; the generator register goes into the
    region's invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second region's arrays: one array read through two windows -/

section Shared

variable (V : (c : Dev nD) → (b : Ref sig .tc) → Buf (Elt F) ((c : Thread nD τ).loc b))

/-- The second region's arrays, window by window: the re-laid feature array twice, at the left and the right half
    share, and the result array at the full share. -/
theorem arrays1_eq (c : Dev nD) (G : (w : Fin cfg1.W) → Buf (Elt F) ((cfg1.win w).arr.view.loc (c.tc : Thread nD τ))) :
    ((dat1 V c).arrays G : sProp 𝕄)
      = iprop((((c : Thread nD τ).loc main_v2) ↦{(fullShare : PosShare TreeShare).left} G 0)
          ∗ (((c : Thread nD τ).loc main_v2) ↦{(fullShare : PosShare TreeShare).right} G 1)
          ∗ (((c : Thread nD τ).loc main_v3) ↦{fullShare} G 2)) := by
  have e0 : (cfg1.win 0).arr.view.set = Finset.univ := (arr_whole1 0).set_eq_univ
  have e2 : (cfg1.win 2).arr.view.set = Finset.univ := (arr_whole1 2).set_eq_univ
  unfold Dat.arrays
  rw [bigSep_W1, e0, e2]
  rfl

/-- The distinct buffers behind the second region's windows: the re-laid feature array and the result array. -/
theorem arrBufs1_eq (c : Dev nD) (X : (b : Ref sig .tc) → Buf (Elt F) ((c : Thread nD τ).loc b)) :
    (Pipeline.arrBufs (Ix := Unit) (Name := ℕ) (U := UR sig nD τ) (Lvl := ℕ) spec1 c X : sProp 𝕄)
      = iprop((((c : Thread nD τ).loc main_v2) ↦{fullShare} X main_v2) ∗ (((c : Thread nD τ).loc main_v3) ↦{fullShare} X main_v3)) := by
  unfold Pipeline.arrBufs
  exact bigSep_eq_bigSepL_of_eq [main_v2, main_v3] (by decide) (by decide) _

/-- ENTRY: the core's unscoped buffers at `V c` are the second region's arrays at their entry contents — the
    feature array's full share split in halves between the two windows that read it — and the unscoped rest. -/
theorem arrays1_split (c : Dev nD) :
    (unscopedBufs c (V c) : sProp 𝕄)
      ⊢ iprop((dat1 V c).arrays (fun w => (dat1 V c).arrAt w 0) ∗ Pipeline.unscopedRest (Ix := Unit) (Name := ℕ) (U := UR sig nD τ) (Lvl := ℕ) spec1 c (V c)) := by
  rw [Pipeline.unscopedBufs_split₀ (Ix := Unit) (Name := ℕ) (U := UR sig nD τ) (Lvl := ℕ) cfgs 1 winFacts₀1.arr_unscoped c (V c)]
  rw [show (cfgs 1).spec = spec1 from rfl, arrBufs1_eq, arrays1_eq]
  iintro ⟨⟨H2, H3⟩, Hr⟩
  ihave H := (pointsTo_share (PosShare.mem_left_op_right fullShare)).1 $$ H2
  icases H with ⟨HL, HR⟩
  isplitr [Hr]
  · isplitl [HL]; · iexact HL
    isplitl [HR]; · iexact HR
    iexact H3
  iexact Hr

end Shared

section SharedExit

variable (V : (c : Dev nD) → (b : Ref sig .tc) → Buf (Elt F) ((c : Thread nD τ).loc b))

/-- EXIT: the second region's arrays at their final contents — the two halves of the feature array, both still at
    its entry contents, joined into the full share; the result array at what the write-backs leave — and the
    unscoped rest are the core's unscoped buffers at any valuation `X` that has the result there and agrees with
    `V c` elsewhere. -/
theorem arrays1_join (c : Dev nD) (X : (b : Ref sig .tc) → Buf (Elt F) ((c : Thread nD τ).loc b))
    (h3 : X main_v3 = (dat1 V c).arrAt 2 cfg1.N) (hrest : ∀ b, b ≠ main_v3 → X b = V c b) :
    iprop((dat1 V c).arrays (fun w => (dat1 V c).arrAt w cfg1.N) ∗ Pipeline.unscopedRest (Ix := Unit) (Name := ℕ) (U := UR sig nD τ) (Lvl := ℕ) spec1 c (V c))
      ⊢ (unscopedBufs c X : sProp 𝕄) := by
  rw [Pipeline.unscopedBufs_split₀ (Ix := Unit) (Name := ℕ) (U := UR sig nD τ) (Lvl := ℕ) cfgs 1 winFacts₀1.arr_unscoped c X]
  rw [show (cfgs 1).spec = spec1 from rfl, arrBufs1_eq, arrays1_eq]
  have ha0 : (dat1 V c).arrAt 0 cfg1.N = X main_v2 :=
    (((dat1 V c).arrAt_in 0 rfl _).trans (A_eq1 V c 0)).trans (hrest main_v2 (by decide)).symm
  have ha1 : (dat1 V c).arrAt 1 cfg1.N = X main_v2 :=
    (((dat1 V c).arrAt_in 1 rfl _).trans (A_eq1 V c 1)).trans (hrest main_v2 (by decide)).symm
  have hr : (Pipeline.unscopedRest (Ix := Unit) (Name := ℕ) (U := UR sig nD τ) (Lvl := ℕ) spec1 c (V c) : sProp 𝕄)
      = Pipeline.unscopedRest spec1 c X := by
    unfold Pipeline.unscopedRest
    exact bigSep_congr fun b hb => by
      rw [hrest b fun e => (Finset.mem_sdiff.mp hb).2 (Finset.mem_image.mpr ⟨2, Finset.mem_univ _, e.symm⟩)]
  rw [hr]
  dsimp only
  rw [ha0, ha1, ← h3]
  iintro ⟨⟨HL, HR, H3⟩, Hr⟩
  isplitr [Hr]
  · isplitr [H3]
    · iapply (pointsTo_share (PosShare.mem_left_op_right fullShare)).2
      isplitl [HL]; · iexact HL
      iexact HR
    iexact H3
  iexact Hr

end SharedExit

/-! ## The second region as a segment -/

theorem hrest1 (c : Dev nD) : ∀ b, b ≠ main_v3 → V3 m c b = V2 m c b := fun b hb => W3_of_ne m c b hb

set_option backward.isDefEq.respectTransparency.types false in
/-- The second region over the thread state: entered from every unscoped buffer at `W2`, left at `W3`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := arrays1_split (V2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest (Ix := Unit) (Name := ℕ) (U := UR sig nD τ) (Lvl := ℕ) spec1 c (V2 m c))
        ⊢ (unscopedBufs c (V3 m c) : sProp 𝕄) := arrays1_join (V2 m) c (V3 m c) (W3_main_v3 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four segments in order. -/
abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]
/-- @main is the run of the segments. -/
theorem main_run (c : Dev nD) : main (F := F) c = Pipeline.Seg.run (segs m) := (main_chain c).trans (by chain_rfl)

set_option backward.isDefEq.respectTransparency.types false in
/-- THE RUN: from any memory with zero counters, every weakly fair execution of @main on the TensorCores terminates,
    nothing faulting, and every final state has every unscoped buffer at the fold's last valuation `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c) ⊢ _
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-! ## The arguments end as launched -/

theorem hostOps1_writes_not (b : Ref sig .tc) (h1 : b ≠ main_v1) (h2 : b ≠ main_v2) (X : Valuation τ sig (Elt F)) :
    StableHlo.after hostOps1 X (Proc.devRef .tc b) = X (Proc.devRef .tc b) :=
  StableHlo.after_of_forall_not_mem (b := Proc.devRef .tc b) _ _ (List.forall_iff_forall_mem.mp (by
    simp only [hostOps1, List.Forall, StableHlo.unary_writes, StableHlo.reshape_writes, Finset.mem_singleton]
    exact ⟨StableHlo.devRef_ne_of_ne h1, StableHlo.devRef_ne_of_ne h2⟩))
theorem hostOps2_writes_not (b : Ref sig .tc) (h4 : b ≠ main_v4) (X : Valuation τ sig (Elt F)) :
    StableHlo.after hostOps2 X (Proc.devRef .tc b) = X (Proc.devRef .tc b) :=
  StableHlo.after_of_forall_not_mem (b := Proc.devRef .tc b) _ _ (List.forall_iff_forall_mem.mp (by
    simp only [hostOps2, List.Forall, StableHlo.binary_writes, Finset.mem_singleton]
    exact StableHlo.devRef_ne_of_ne h4))

/-- No region and no host stretch writes an argument: it ends holding its launch contents. -/
theorem W4_arg (b : Ref sig .tc) (h0 : b ≠ main_v0) (h1 : b ≠ main_v1) (h2 : b ≠ main_v2) (h3 : b ≠ main_v3) (h4 : b ≠ main_v4) (c : Dev nD) :
    W4 m c (Proc.devRef .tc b) = m ((c : Thread nD τ).loc b) :=
  ((hostOps2_writes_not b h4 _).trans (W3_of_ne m c b h3)).trans (((hostOps1_writes_not b h1 h2 _).trans (W1_of_ne m c b h0)).trans rfl)

/-- THE FRAME: every weakly fair execution terminates, nothing faulting, and both arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_arg m main_arg0 (by decide) (by decide) (by decide) (by decide) (by decide) c),
     (h c _ (mem_uc main_arg1 (by decide))).trans (W4_arg m main_arg1 (by decide) (by decide) (by decide) (by decide) (by decide) c)⟩)
    (run_all m ρ)

end Cert.KernelIdeal.Hand

end
-- ==== Proof.Spec.lean ====
/- The function both programs compute, on plain indices over the extended reals.
   `proj f T` is the projection `f · T`. Its 2048 columns are 64 features of 32 coordinates each,
   feature `b`'s coordinate `c` at column `32 b + c`. `dist M i j b` is the L1 distance between
   samples `i` and `j` in feature `b`; `sim M i b` sums `exp (−dist)` over all samples `j`
   (the sample itself included). The result row `i` is row `i` of `f` followed by the 64 values
   `sim (proj f T) i b`. -/
import Idealize.ShloMosaic.PureOps.Ideal
import Mathlib.Algebra.BigOperators.Group.Finset.Basic

noncomputable section

namespace Cert.Spec

open Idealize.ShloMosaic

/-- Entry `(i, j)` of the product of `f` and `T`. -/
def proj (f : Fin 256 → Fin 2048 → EReal) (T : Fin 2048 → Fin 2048 → EReal) (i : Fin 256) (j : Fin 2048) : EReal :=
  ∑ k : Fin 2048, f i k * T k j

/-- The flat column of feature `b`, coordinate `c`. -/
def col (b : Fin 64) (c : Fin 32) : Fin 2048 := ⟨b.val * 32 + c.val, by omega⟩

/-- The L1 distance of samples `i`, `j` within feature `b`. -/
def dist (M : Fin 256 → Fin 2048 → EReal) (i j : Fin 256) (b : Fin 64) : EReal :=
  ∑ c : Fin 32, max (M i (col b c) - M j (col b c)) (-(M i (col b c) - M j (col b c)))

/-- The similarity of sample `i` to all samples within feature `b`. -/
def sim (M : Fin 256 → Fin 2048 → EReal) (i : Fin 256) (b : Fin 64) : EReal :=
  ∑ j : Fin 256, Ideal.exp (-(dist M i j b))

/-- Row `i` of the result: `f`'s row, then the 64 similarities. -/
def out (f : Fin 256 → Fin 2048 → EReal) (T : Fin 2048 → Fin 2048 → EReal) (i : Fin 256) (q : Fin 2112) : EReal :=
  if h : q.val < 2048 then f i ⟨q.val, h⟩ else sim (proj f T) i ⟨q.val - 2048, by omega⟩

end Cert.Spec

end
-- ==== Proof.KI.Value0.lean ====
import proofs.«162574_j79843442033274_1_alg».proof.Proof.KI.Region0
import proofs.«162574_j79843442033274_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! The first region's result array, read at an index. Point `t` of the two-point grid multiplies rows
    `128 t … 128 t + 127` of the left operand by the whole right operand into a zero accumulator and writes the
    product back as the same rows of the result; the two row blocks fill the result, so entry `(p, j)` ends at
    `∑ k, f p k * T k j`. -/

/-- Both zero offsets, spelt as the constant function. -/
theorem hz0 : (![0, 0] : Fin 2 → Nat) = fun _ => 0 := funext fun a => by
  match a with
  | ⟨0, _⟩ => rfl
  | ⟨1, _⟩ => rfl

/-! ## The product's operand indices, axis by axis -/

theorem lhs_k0_0 (i : S128x2048.Idx) (q : dot_S128x2048_S2048x2048_S128x2048_1_0_0_1_n_n.contr.Idx) :
    (dot_S128x2048_S2048x2048_S128x2048_1_0_0_1_n_n.lhsIdx i q 0).val = (i 0).val := by
  unfold DotDims.lhsIdx
  rw [dif_neg (show ¬(0 : Fin S128x2048.rank) ∈ dot_S128x2048_S2048x2048_S128x2048_1_0_0_1_n_n.lhsBatch by decide), dif_pos (show (0 : Fin S128x2048.rank) ∈ dot_S128x2048_S2048x2048_S128x2048_1_0_0_1_n_n.lhsNonContracting by decide)]
  rfl
theorem lhs_k0_1 (i : S128x2048.Idx) (q : dot_S128x2048_S2048x2048_S128x2048_1_0_0_1_n_n.contr.Idx) :
    (dot_S128x2048_S2048x2048_S128x2048_1_0_0_1_n_n.lhsIdx i q 1).val = (q ⟨0, by decide⟩).val :=
  dot_S128x2048_S2048x2048_S128x2048_1_0_0_1_n_n.lhsIdx_val_of_single rfl i q
theorem rhs_k0_0 (i : S128x2048.Idx) (q : dot_S128x2048_S2048x2048_S128x2048_1_0_0_1_n_n.contr.Idx) :
    (dot_S128x2048_S2048x2048_S128x2048_1_0_0_1_n_n.rhsIdx i q 0).val = (q ⟨0, by decide⟩).val :=
  dot_S128x2048_S2048x2048_S128x2048_1_0_0_1_n_n.rhsIdx_val_of_single rfl i q
theorem rhs_k0_1 (i : S128x2048.Idx) (q : dot_S128x2048_S2048x2048_S128x2048_1_0_0_1_n_n.contr.Idx) :
    (dot_S128x2048_S2048x2048_S128x2048_1_0_0_1_n_n.rhsIdx i q 1).val = (i 1).val := by
  unfold DotDims.rhsIdx
  rw [dif_neg (show ¬(1 : Fin S2048x2048.rank) ∈ dot_S128x2048_S2048x2048_S128x2048_1_0_0_1_n_n.rhsBatch by decide), dif_pos (show (1 : Fin S2048x2048.rank) ∈ dot_S128x2048_S2048x2048_S128x2048_1_0_0_1_n_n.rhsNonContracting by decide)]
  rfl

/-- The body's arithmetic at row `p`, column `j` of a block: the sum over `k` of the left block at `(p, k)`
    times the right operand at `(k, j)`. The two changes of format are the identity on the extended reals and the
    accumulator is zero. -/
theorem pay0_apply (v0 : Vec Ideal S128x2048 .f32) (v2 : Vec Ideal S2048x2048 .f32) (p : Fin 128) (j : Fin 2048) :
    (k0_pay1 (F := Ideal) v0 v2 : S128x2048.Idx → EReal) (ix2 p j)
      = ∑ k : Fin 2048, (v0 : S128x2048.Idx → EReal) (ix2 p k) * (v2 : S2048x2048.Idx → EReal) (ix2 k j) := by
  unfold k0_pay1
  refine (Ideal.matmul_constant_zero_apply dot_S128x2048_S2048x2048_S128x2048_1_0_0_1_n_n none _ _ (ix2 p j)).trans ?_
  rw [← Equiv.sum_comp (contrEquiv1 dot_S128x2048_S2048x2048_S128x2048_1_0_0_1_n_n 2048 rfl rfl).symm]
  refine Finset.sum_congr rfl fun k _ => ?_
  have hk := contrEquiv1_symm_val dot_S128x2048_S2048x2048_S128x2048_1_0_0_1_n_n 2048 rfl rfl k
  have el : dot_S128x2048_S2048x2048_S128x2048_1_0_0_1_n_n.lhsIdx (ix2 p j) ((contrEquiv1 dot_S128x2048_S2048x2048_S128x2048_1_0_0_1_n_n 2048 rfl rfl).symm k) = ix2 p k := funext fun a => Fin.ext (by
    match a with
    | ⟨0, _⟩ => exact lhs_k0_0 _ _
    | ⟨1, _⟩ => exact (lhs_k0_1 _ _).trans hk)
  have er : dot_S128x2048_S2048x2048_S128x2048_1_0_0_1_n_n.rhsIdx (ix2 p j) ((contrEquiv1 dot_S128x2048_S2048x2048_S128x2048_1_0_0_1_n_n 2048 rfl rfl).symm k) = ix2 k j := funext fun a => Fin.ext (by
    match a with
    | ⟨0, _⟩ => exact (rhs_k0_0 _ _).trans hk
    | ⟨1, _⟩ => exact rhs_k0_1 _ _)
  rw [el, er]
  rfl

/-! ## From the blocks to the array -/

/-- The projection of the two operand arrays as the region finds them, as one function of the result array's index. -/
abbrev proj0 (c : Dev nD) : S256x2048.Idx → EReal := fun i =>
  Cert.Spec.proj (fun a k => (V c main_arg0 : S256x2048.Idx → EReal) (ix2 a k))
    (fun k b => (V c main_arg1 : S2048x2048.Idx → EReal) (ix2 k b)) ⟨(i 0).val, (i 0).isLt⟩ ⟨(i 1).val, (i 1).isLt⟩

/-- The windows' block indices over the grid: point `t` stages row block `t` of the left operand and writes row block `t`
    of the result, both at column block 0; the right operand's one block is at (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point `t` is rows `128 t … 128 t + 127` of its array. -/
theorem left_block_apply (c : Dev nD) (t : Fin cfg0.N) (x : S128x2048.Idx) (i : S256x2048.Idx)
    (h0 : (i 0).val = 128 * t.val + (x 0).val) (h1 : (i 1).val = (x 1).val) :
    (iblk0 (F := Ideal) V c 0 t : S128x2048.Idx → EReal) x = (V c main_arg0 : S256x2048.Idx → EReal) i := by
  obtain ⟨e0, e1, -⟩ := idx_facts0 t
  show (V c main_arg0 : S256x2048.Idx → EReal) (((cfg0.win 0).blk t).view.emb x) = (V c main_arg0 : S256x2048.Idx → EReal) i
  refine congrArg (V c main_arg0 : S256x2048.Idx → EReal) (funext fun a => Fin.ext ?_)
  match a with
  | ⟨0, _⟩ => show win0_0.index t (0 : Fin 2) * 128 + 1 * (x 0).val = (i 0).val; omega
  | ⟨1, _⟩ => show win0_0.index t (1 : Fin 2) * 2048 + 1 * (x 1).val = (i 1).val; omega

/-- The right operand's block at every point is its whole array. -/
theorem right_block_apply (c : Dev nD) (t : Fin cfg0.N) (x : S2048x2048.Idx) (i : S2048x2048.Idx)
    (h0 : (i 0).val = (x 0).val) (h1 : (i 1).val = (x 1).val) :
    (iblk0 (F := Ideal) V c 1 t : S2048x2048.Idx → EReal) x = (V c main_arg1 : S2048x2048.Idx → EReal) i := by
  obtain ⟨-, -, e2, e3, -⟩ := idx_facts0 t
  show (V c main_arg1 : S2048x2048.Idx → EReal) (((cfg0.win 1).blk t).view.emb x) = (V c main_arg1 : S2048x2048.Idx → EReal) i
  refine congrArg (V c main_arg1 : S2048x2048.Idx → EReal) (funext fun a => Fin.ext ?_)
  match a with
  | ⟨0, _⟩ => show win0_1.index t (0 : Fin 2) * 2048 + 1 * (x 0).val = (i 0).val; omega
  | ⟨1, _⟩ => show win0_1.index t (1 : Fin 2) * 2048 + 1 * (x 1).val = (i 1).val; omega

/-- What point `t` writes back is its block of the projection: rows `128 t …` of the product of the left operand's
    rows `128 t …` with the whole right operand. -/
theorem flushed0_eq (c : Dev nD) (t : Fin cfg0.N) :
    (dat0 (F := Ideal) V c).flushed 2 t = ((cfg0.win 2).blk t).view.read (Elt Ideal) (proj0 V c) := by
  show (cfg0.win 2).cut (grid0.coords t) ((dat0 (F := Ideal) V c).after 2 t) = _
  rw [after0_2]
  unfold out0_2
  rw [View.canon_unit_zero hz0]
  simp only [View.ld_unit_zero (S := S128x2048) hz0, View.ld_unit_zero (S := S2048x2048) hz0]
  obtain ⟨-, -, -, -, e4, e5⟩ := idx_facts0 t
  funext y
  have hy0 : (y 0).val < 128 := (y 0).isLt
  have hy1 : (y 1).val < 2048 := (y 1).isLt
  have hxy : (win0 2).xinj (grid0.coords t) y = ix2 (⟨(y 0).val, hy0⟩ : Fin 128) (⟨(y 1).val, hy1⟩ : Fin 2048) :=
    funext fun a => by
      match a with
      | ⟨0, _⟩ => rfl
      | ⟨1, _⟩ => rfl
  show (k0_pay1 (F := Ideal) (iblk0 V c 0 t) (iblk0 V c 1 t) : S128x2048.Idx → EReal) ((win0 2).xinj (grid0.coords t) y)
    = proj0 V c (((cfg0.win 2).blk t).view.emb y)
  rw [hxy]
  refine (pay0_apply _ _ _ _).trans ?_
  refine Finset.sum_congr rfl fun k _ => ?_
  refine congrArg₂ (· * ·) ?_ ?_
  · refine left_block_apply V c t _ _ ?_ rfl
    show win0_2.index t (0 : Fin 2) * 128 + 1 * (y 0).val = 128 * t.val + (y 0).val
    omega
  · refine right_block_apply V c t _ _ rfl ?_
    show win0_2.index t (1 : Fin 2) * 2048 + 1 * (y 1).val = (y 1).val
    omega

/-- An index of the result array is in point `t`'s block iff each coordinate is in the block's range on its axis. -/
theorem mem_blk0 (t : Fin cfg0.N) (i : S256x2048.Idx) :
    i ∈ ((cfg0.win 2).blk t).view.set ↔ ∀ a : Fin 2, win0_2.index t a * S128x2048.size a ≤ (i a).val ∧ (i a).val < win0_2.index t a * S128x2048.size a + S128x2048.size a := by
  show i ∈ ((View.whole main_v0).slice (win0_2.rect t)).set ↔ _
  rw [View.set_slice_whole, Rect.mem_set_unit]
  exact Iff.rfl

/-- Row `r` of the result is written back by point `r / 128`: the two row blocks fill the array. -/
theorem cover0 (i : S256x2048.Idx) :
    ∃ t : Fin cfg0.N, (cfg0.win 2).flush t = true ∧ i ∈ ((cfg0.win 2).blk t).view.set := by
  have hi0 : (i 0).val < 256 := (i 0).isLt
  have hi1 : (i 1).val < 2048 := (i 1).isLt
  have hN : grid0.N = 2 := N_0
  have ht : (i 0).val / 128 < grid0.N := by rw [hN]; omega
  refine ⟨⟨(i 0).val / 128, ht⟩, flush0_2 _, ?_⟩
  obtain ⟨-, -, -, -, e4, e5⟩ := idx_facts0 ⟨(i 0).val / 128, ht⟩
  have e4' : win0_2.index ⟨(i 0).val / 128, ht⟩ (0 : Fin 2) = (i 0).val / 128 := e4
  rw [mem_blk0]
  intro a
  match a with
  | ⟨0, _⟩ =>
    show win0_2.index ⟨(i 0).val / 128, ht⟩ (0 : Fin 2) * 128 ≤ (i 0).val ∧ (i 0).val < win0_2.index ⟨(i 0).val / 128, ht⟩ (0 : Fin 2) * 128 + 128
    omega
  | ⟨1, _⟩ =>
    show win0_2.index ⟨(i 0).val / 128, ht⟩ (1 : Fin 2) * 2048 ≤ (i 1).val ∧ (i 1).val < win0_2.index ⟨(i 0).val / 128, ht⟩ (1 : Fin 2) * 2048 + 2048
    omega

/-- So the result array ends holding the projection. -/
theorem arr0_eq (c : Dev nD) : (dat0 (F := Ideal) V c).arrAt 2 cfg0.N = proj0 V c :=
  (dat0 (F := Ideal) V c).arrAt_eq_of_cover 2 (proj0 V c) (fun t _ => flushed0_eq V c t) cover0

/-- After the first region the result array holds the projection of the two operand arrays as the region found them. -/
theorem arr0_final (c : Dev nD) (p : Fin 256) (j : Fin 2048) :
    ((dat0 (F := Ideal) V c).arrAt 2 cfg0.N : S256x2048.Idx → EReal) (ix2 p j)
      = Cert.Spec.proj (fun a k => (V c main_arg0 : S256x2048.Idx → EReal) (ix2 a k))
          (fun k b => (V c main_arg1 : S2048x2048.Idx → EReal) (ix2 k b)) p j := by
  exact congrFun (arr0_eq V c) (ix2 p j)

end Cert.KernelIdeal.Hand

end
-- ==== Proof.KI.Pay1.lean ====
import proofs.«162574_j79843442033274_1_alg».proof.Proof.KI.Region1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

/-- Slab `k` of the query block, read at sample `p`, feature `b`: the block at `(p, k, b)`. -/
theorem p1_ldA (x0 : Vec Ideal S64x32x64 .f32) (k : ℕ) (hk : k < 32) (p : Fin 64) (u : Fin 1) (b : Fin 64) :
    (View.ld x0 (rA k hk) : S64x1x64.Idx → EReal) (ix3 p u b) = (x0 : S64x32x64.Idx → EReal) (ix3 p ⟨k, hk⟩ b) := by
  show x0 ((rA k hk).idx (ix3 p u b)) = x0 (ix3 p ⟨k, hk⟩ b)
  congr 1
  funext a
  match a with
  | ⟨0, _⟩ => apply Fin.ext; show 0 + 1 * p.val = p.val; omega
  | ⟨1, _⟩ => apply Fin.ext; show k + 1 * u.val = k; omega
  | ⟨2, _⟩ => apply Fin.ext; show 0 + 1 * b.val = b.val; omega

/-- Slab `k` of the key samples, read at sample `j`, feature `b`: the array at `(j, k, b)`. -/
theorem p1_ldB (x1 : Vec Ideal S256x32x64 .f32) (k : ℕ) (hk : k < 32) (j : Fin 256) (u : Fin 1) (b : Fin 64) :
    (View.ld x1 (rB k hk) : S256x1x64.Idx → EReal) (ix3 j u b) = (x1 : S256x32x64.Idx → EReal) (ix3 j ⟨k, hk⟩ b) := by
  show x1 ((rB k hk).idx (ix3 j u b)) = x1 (ix3 j ⟨k, hk⟩ b)
  congr 1
  funext a
  match a with
  | ⟨0, _⟩ => apply Fin.ext; show 0 + 1 * j.val = j.val; omega
  | ⟨1, _⟩ => apply Fin.ext; show k + 1 * u.val = k; omega
  | ⟨2, _⟩ => apply Fin.ext; show 0 + 1 * b.val = b.val; omega

/-- A `[64, 1, 64]` slab viewed `[64, 64]` reads, at `(p, b)`, the slab at `(p, 0, b)`. -/
theorem p1_castA (a : S64x1x64.Idx → EReal) (h : S64x1x64.ShapeCasts S64x64) (p : Fin 64) (b : Fin 64) :
    shapeCast S64x64 a h (ix2 p b) = a (ix3 p (0 : Fin 1) b) :=
  shapeCast_apply a h _ _ (by
    rw [Shape.rowMajor_val_three, Shape.rowMajor_val_two]
    show (p.val * 1 + 0) * 64 + b.val = p.val * 64 + b.val
    omega)

/-- A `[256, 1, 64]` slab viewed `[256, 64]` reads, at `(j, b)`, the slab at `(j, 0, b)`. -/
theorem p1_castB (a : S256x1x64.Idx → EReal) (h : S256x1x64.ShapeCasts S256x64) (j : Fin 256) (b : Fin 64) :
    shapeCast S256x64 a h (ix2 j b) = a (ix3 j (0 : Fin 1) b) :=
  shapeCast_apply a h _ _ (by
    rw [Shape.rowMajor_val_three, Shape.rowMajor_val_two]
    show (j.val * 1 + 0) * 64 + b.val = j.val * 64 + b.val
    omega)

/-- The query matrix `[64, 64]` spread over the key axis: at `(p, j, b)` it reads `(p, b)`. -/
theorem p1_spreadA (a : S64x64.Idx → EReal) (h : S64x64.ShapeCasts S64x1x64) (h' : S64x1x64.Broadcasts S64x256x64)
    (p : Fin 64) (j : Fin 256) (b : Fin 64) :
    broadcastTo S64x256x64 (shapeCast S64x1x64 a h) h' (ix3 p j b) = a (ix2 p b) := by
  refine (broadcastTo_apply _ h' (ix3 p j b) (ix3 p (0 : Fin 1) b) fun ax => ?_).trans ?_
  · match ax with
    | ⟨0, _⟩ => rfl
    | ⟨1, _⟩ => rfl
    | ⟨2, _⟩ => rfl
  · exact shapeCast_apply a h _ _ (by
      rw [Shape.rowMajor_val_three, Shape.rowMajor_val_two]
      show p.val * 64 + b.val = (p.val * 1 + 0) * 64 + b.val
      omega)

/-- The key matrix `[256, 64]` spread over the query axis: at `(p, j, b)` it reads `(j, b)`. -/
theorem p1_spreadB (a : S256x64.Idx → EReal) (h : S256x64.ShapeCasts S1x256x64) (h' : S1x256x64.Broadcasts S64x256x64)
    (p : Fin 64) (j : Fin 256) (b : Fin 64) :
    broadcastTo S64x256x64 (shapeCast S1x256x64 a h) h' (ix3 p j b) = a (ix2 j b) := by
  refine (broadcastTo_apply _ h' (ix3 p j b) (ix3 (0 : Fin 1) j b) fun ax => ?_).trans ?_
  · match ax with
    | ⟨0, _⟩ => rfl
    | ⟨1, _⟩ => rfl
    | ⟨2, _⟩ => rfl
  · exact shapeCast_ab_1ab_apply a h _ _ _

/-- An absolute value at the ideal values, at an index: the larger of the element and its negation. -/
theorem p1_absf_apply {s : Shape} (v : FVec Ideal s .f32) (i : s.Idx) : absf v i = max (v i) (-(v i)) := rfl

/-- One coordinate's term of the distance between query sample `p` and key sample `j` at feature `b`, from the two
    slabs of that coordinate: `|a[p, 0, b] − bb[j, 0, b]|`. -/
def p1_d (a : S64x1x64.Idx → EReal) (bb : S256x1x64.Idx → EReal) (p : Fin 64) (j : Fin 256) (b : Fin 64) : EReal :=
  max (a (ix3 p (0 : Fin 1) b) - bb (ix3 j (0 : Fin 1) b)) (-(a (ix3 p (0 : Fin 1) b) - bb (ix3 j (0 : Fin 1) b)))

/-- The term over the slabs of coordinate `k` is `|x0[p, k, b] − x1[j, k, b]|`. -/
theorem p1_d_ld (x0 : Vec Ideal S64x32x64 .f32) (x1 : Vec Ideal S256x32x64 .f32) (k : ℕ) (hk : k < 32) (p : Fin 64) (j : Fin 256) (b : Fin 64) :
    p1_d (View.ld x0 (rA k hk)) (View.ld x1 (rB k hk)) p j b
      = max ((x0 : S64x32x64.Idx → EReal) (ix3 p ⟨k, hk⟩ b) - (x1 : S256x32x64.Idx → EReal) (ix3 j ⟨k, hk⟩ b))
          (-((x0 : S64x32x64.Idx → EReal) (ix3 p ⟨k, hk⟩ b) - (x1 : S256x32x64.Idx → EReal) (ix3 j ⟨k, hk⟩ b))) := by
  unfold p1_d
  rw [p1_ldA, p1_ldB]

/-! ## The payloads at an index: the accumulator before, plus the terms of the coordinates each one adds -/

theorem p1_pay2 (a0 : Vec Ideal S64x1x64 .f32) (b0 : Vec Ideal S256x1x64 .f32) (a1 : Vec Ideal S64x1x64 .f32) (b1 : Vec Ideal S256x1x64 .f32) (a2 : Vec Ideal S64x1x64 .f32) (b2 : Vec Ideal S256x1x64 .f32) (p : Fin 64) (j : Fin 256) (b : Fin 64) :
    (k1_pay2 (F := Ideal) a0 b0 a1 b1 a2 b2 : S64x256x64.Idx → EReal) (ix3 p j b)
      = 0 + p1_d a0 b0 p j b + p1_d a1 b1 p j b + p1_d a2 b2 p j b := by
  unfold k1_pay2
  simp only [addf_apply, p1_absf_apply, subf_apply, p1_spreadA, p1_spreadB, p1_castA, p1_castB, broadcast_apply]
  rw [Ideal.ofBits_def, Ideal.ofBits_zero_f32]; rfl

theorem p1_pay4 (acc : FVec Ideal S64x256x64 .f32) (a3 : Vec Ideal S64x1x64 .f32) (b3 : Vec Ideal S256x1x64 .f32) (a4 : Vec Ideal S64x1x64 .f32) (b4 : Vec Ideal S256x1x64 .f32) (a5 : Vec Ideal S64x1x64 .f32) (b5 : Vec Ideal S256x1x64 .f32) (p : Fin 64) (j : Fin 256) (b : Fin 64) :
    (k1_pay4 (F := Ideal) acc (k1_pay3 a3) b3 a4 b4 a5 b5 : S64x256x64.Idx → EReal) (ix3 p j b)
      = acc (ix3 p j b) + p1_d a3 b3 p j b + p1_d a4 b4 p j b + p1_d a5 b5 p j b := by
  unfold k1_pay4 k1_pay3
  simp only [addf_apply, p1_absf_apply, subf_apply, p1_spreadA, p1_spreadB, p1_castA, p1_castB, broadcast_apply]
  rfl

theorem p1_pay6 (acc : FVec Ideal S64x256x64 .f32) (a6 : Vec Ideal S64x1x64 .f32) (b6 : Vec Ideal S256x1x64 .f32) (a7 : Vec Ideal S64x1x64 .f32) (b7 : Vec Ideal S256x1x64 .f32) (a8 : Vec Ideal S64x1x64 .f32) (b8 : Vec Ideal S256x1x64 .f32) (a9 : Vec Ideal S64x1x64 .f32) (b9 : Vec Ideal S256x1x64 .f32) (p : Fin 64) (j : Fin 256) (b : Fin 64) :
    (k1_pay6 (F := Ideal) acc (k1_pay5 a6 b6) a7 b7 a8 b8 a9 b9 : S64x256x64.Idx → EReal) (ix3 p j b)
      = acc (ix3 p j b) + p1_d a6 b6 p j b + p1_d a7 b7 p j b + p1_d a8 b8 p j b + p1_d a9 b9 p j b := by
  unfold k1_pay6 k1_pay5
  simp only [addf_apply, p1_absf_apply, subf_apply, p1_spreadA, p1_spreadB, p1_castA, p1_castB, broadcast_apply]
  rfl

theorem p1_pay8 (acc : FVec Ideal S64x256x64 .f32) (a10 : Vec Ideal S64x1x64 .f32) (b10 : Vec Ideal S256x1x64 .f32) (a11 : Vec Ideal S64x1x64 .f32) (b11 : Vec Ideal S256x1x64 .f32) (a12 : Vec Ideal S64x1x64 .f32) (b12 : Vec Ideal S256x1x64 .f32) (p : Fin 64) (j : Fin 256) (b : Fin 64) :
    (k1_pay8 (F := Ideal) acc (k1_pay7 a10) b10 a11 b11 a12 b12 : S64x256x64.Idx → EReal) (ix3 p j b)
      = acc (ix3 p j b) + p1_d a10 b10 p j b + p1_d a11 b11 p j b + p1_d a12 b12 p j b := by
  unfold k1_pay8 k1_pay7
  simp only [addf_apply, p1_absf_apply, subf_apply, p1_spreadA, p1_spreadB, p1_castA, p1_castB, broadcast_apply]
  rfl

theorem p1_pay10 (acc : FVec Ideal S64x256x64 .f32) (a13 : Vec Ideal S64x1x64 .f32) (b13 : Vec Ideal S256x1x64 .f32) (a14 : Vec Ideal S64x1x64 .f32) (b14 : Vec Ideal S256x1x64 .f32) (a15 : Vec Ideal S64x1x64 .f32) (b15 : Vec Ideal S256x1x64 .f32) (a16 : Vec Ideal S64x1x64 .f32) (b16 : Vec Ideal S256x1x64 .f32) (p : Fin 64) (j : Fin 256) (b : Fin 64) :
    (k1_pay10 (F := Ideal) acc (k1_pay9 a13 b13) a14 b14 a15 b15 a16 b16 : S64x256x64.Idx → EReal) (ix3 p j b)
      = acc (ix3 p j b) + p1_d a13 b13 p j b + p1_d a14 b14 p j b + p1_d a15 b15 p j b + p1_d a16 b16 p j b := by
  unfold k1_pay10 k1_pay9
  simp only [addf_apply, p1_absf_apply, subf_apply, p1_spreadA, p1_spreadB, p1_castA, p1_castB, broadcast_apply]
  rfl

theorem p1_pay12 (acc : FVec Ideal S64x256x64 .f32) (a17 : Vec Ideal S64x1x64 .f32) (b17 : Vec Ideal S256x1x64 .f32) (a18 : Vec Ideal S64x1x64 .f32) (b18 : Vec Ideal S256x1x64 .f32) (a19 : Vec Ideal S64x1x64 .f32) (b19 : Vec Ideal S256x1x64 .f32) (a20 : Vec Ideal S64x1x64 .f32) (b20 : Vec Ideal S256x1x64 .f32) (p : Fin 64) (j : Fin 256) (b : Fin 64) :
    (k1_pay12 (F := Ideal) acc (k1_pay11 a17) b17 a18 b18 a19 b19 a20 b20 : S64x256x64.Idx → EReal) (ix3 p j b)
      = acc (ix3 p j b) + p1_d a17 b17 p j b + p1_d a18 b18 p j b + p1_d a19 b19 p j b + p1_d a20 b20 p j b := by
  unfold k1_pay12 k1_pay11
  simp only [addf_apply, p1_absf_apply, subf_apply, p1_spreadA, p1_spreadB, p1_castA, p1_castB, broadcast_apply]
  rfl

theorem p1_pay13 (acc : FVec Ideal S64x256x64 .f32) (a21 : Vec Ideal S64x1x64 .f32) (b21 : Vec Ideal S256x1x64 .f32) (a22 : Vec Ideal S64x1x64 .f32) (b22 : Vec Ideal S256x1x64 .f32) (a23 : Vec Ideal S64x1x64 .f32) (b23 : Vec Ideal S256x1x64 .f32) (p : Fin 64) (j : Fin 256) (b : Fin 64) :
    (k1_pay13 (F := Ideal) acc a21 b21 a22 b22 a23 b23 : S64x256x64.Idx → EReal) (ix3 p j b)
      = acc (ix3 p j b) + p1_d a21 b21 p j b + p1_d a22 b22 p j b + p1_d a23 b23 p j b := by
  unfold k1_pay13
  simp only [addf_apply, p1_absf_apply, subf_apply, p1_spreadA, p1_spreadB, p1_castA, p1_castB, broadcast_apply]
  rfl

theorem p1_pay15 (acc : FVec Ideal S64x256x64 .f32) (a24 : Vec Ideal S64x1x64 .f32) (b24 : Vec Ideal S256x1x64 .f32) (a25 : Vec Ideal S64x1x64 .f32) (b25 : Vec Ideal S256x1x64 .f32) (a26 : Vec Ideal S64x1x64 .f32) (b26 : Vec Ideal S256x1x64 .f32) (a27 : Vec Ideal S64x1x64 .f32) (b27 : Vec Ideal S256x1x64 .f32) (p : Fin 64) (j : Fin 256) (b : Fin 64) :
    (k1_pay15 (F := Ideal) acc (k1_pay14 a24) b24 a25 b25 a26 b26 a27 b27 : S64x256x64.Idx → EReal) (ix3 p j b)
      = acc (ix3 p j b) + p1_d a24 b24 p j b + p1_d a25 b25 p j b + p1_d a26 b26 p j b + p1_d a27 b27 p j b := by
  unfold k1_pay15 k1_pay14
  simp only [addf_apply, p1_absf_apply, subf_apply, p1_spreadA, p1_spreadB, p1_castA, p1_castB, broadcast_apply]
  rfl

theorem p1_pay16 (acc : FVec Ideal S64x256x64 .f32) (a28 : Vec Ideal S64x1x64 .f32) (b28 : Vec Ideal S256x1x64 .f32) (a29 : Vec Ideal S64x1x64 .f32) (b29 : Vec Ideal S256x1x64 .f32) (a30 : Vec Ideal S64x1x64 .f32) (b30 : Vec Ideal S256x1x64 .f32) (p : Fin 64) (j : Fin 256) (b : Fin 64) :
    (k1_pay16 (F := Ideal) acc a28 b28 a29 b29 a30 b30 : S64x256x64.Idx → EReal) (ix3 p j b)
      = acc (ix3 p j b) + p1_d a28 b28 p j b + p1_d a29 b29 p j b + p1_d a30 b30 p j b := by
  unfold k1_pay16
  simp only [addf_apply, p1_absf_apply, subf_apply, p1_spreadA, p1_spreadB, p1_castA, p1_castB, broadcast_apply]
  rfl

/-! ## The last payload: the sum over the key samples -/

/-- The sum over axis 1 of a `[64, 256, 64]` vector, at `(p, b)`: the sum over `j` of the vector at `(p, j, b)`. -/
theorem p1_reduce (src : FVec Ideal S64x256x64 .f32) (h : S64x256x64.Reduces [1] S64x64) (hφ : FKind.Formats .f32)
    (hacc : (0x00000000#32 : BitVec 32) = 0x00000000#32) (p : Fin 64) (b : Fin 64) :
    (multiReduction .add [1] S64x64 src 0x00000000#32 h hφ hacc : S64x64.Idx → EReal) (ix2 p b) = ∑ j : Fin 256, src (ix3 p j b) := by
  refine (Ideal.multiReduction_add_single src 0x00000000#32 h hφ hacc (ix2 p b)).trans ?_
  refine Finset.sum_congr rfl fun j _ => congrArg src ?_
  funext a
  match a with
  | ⟨0, _⟩ => rfl
  | ⟨1, _⟩ => rfl
  | ⟨2, _⟩ => rfl

theorem p1_pay1 (acc : FVec Ideal S64x256x64 .f32) (a31 : Vec Ideal S64x1x64 .f32) (b31 : Vec Ideal S256x1x64 .f32) (p : Fin 64) (b : Fin 64) :
    (k1_pay1 (F := Ideal) acc (k1_pay17 a31) (k1_pay18 b31) : S64x64.Idx → EReal) (ix2 p b)
      = ∑ j : Fin 256, Ideal.exp (-(acc (ix3 p j b) + p1_d a31 b31 p j b)) := by
  unfold k1_pay1 k1_pay17 k1_pay18
  refine (p1_reduce _ _ _ _ p b).trans ?_
  refine Finset.sum_congr rfl fun j _ => ?_
  show Ideal.exp (Ideal.ofBits .f32 0x00000000#32 - _) = _
  rw [Ideal.ofBits_zero_f32, zero_sub]
  simp only [addf_apply, p1_absf_apply, subf_apply, p1_spreadA, p1_spreadB, p1_castA, p1_castB, broadcast_apply]
  rfl

/-! ## The payloads composed in program order -/

/-- The stored value over any 32 query slabs `a k` and key slabs `bb k`: at `(p, b)`, the sum over the key samples `j` of
    `exp` of minus the 32 terms added up from zero in coordinate order. -/
theorem p1_core (a : (k : ℕ) → k < 32 → Vec Ideal S64x1x64 .f32) (bb : (k : ℕ) → k < 32 → Vec Ideal S256x1x64 .f32) (p : Fin 64) (b : Fin 64) :
    (k1_pay1 (k1_pay16 (k1_pay15 (k1_pay13 (k1_pay12 (k1_pay10 (k1_pay8 (k1_pay6 (k1_pay4 (k1_pay2 (F := Ideal) (a 0 (by decide)) (bb 0 (by decide)) (a 1 (by decide)) (bb 1 (by decide)) (a 2 (by decide)) (bb 2 (by decide))) (k1_pay3 (a 3 (by decide))) (bb 3 (by decide)) (a 4 (by decide)) (bb 4 (by decide)) (a 5 (by decide)) (bb 5 (by decide))) (k1_pay5 (a 6 (by decide)) (bb 6 (by decide))) (a 7 (by decide)) (bb 7 (by decide)) (a 8 (by decide)) (bb 8 (by decide)) (a 9 (by decide)) (bb 9 (by decide))) (k1_pay7 (a 10 (by decide))) (bb 10 (by decide)) (a 11 (by decide)) (bb 11 (by decide)) (a 12 (by decide)) (bb 12 (by decide))) (k1_pay9 (a 13 (by decide)) (bb 13 (by decide))) (a 14 (by decide)) (bb 14 (by decide)) (a 15 (by decide)) (bb 15 (by decide)) (a 16 (by decide)) (bb 16 (by decide))) (k1_pay11 (a 17 (by decide))) (bb 17 (by decide)) (a 18 (by decide)) (bb 18 (by decide)) (a 19 (by decide)) (bb 19 (by decide)) (a 20 (by decide)) (bb 20 (by decide))) (a 21 (by decide)) (bb 21 (by decide)) (a 22 (by decide)) (bb 22 (by decide)) (a 23 (by decide)) (bb 23 (by decide))) (k1_pay14 (a 24 (by decide))) (bb 24 (by decide)) (a 25 (by decide)) (bb 25 (by decide)) (a 26 (by decide)) (bb 26 (by decide)) (a 27 (by decide)) (bb 27 (by decide))) (a 28 (by decide)) (bb 28 (by decide)) (a 29 (by decide)) (bb 29 (by decide)) (a 30 (by decide)) (bb 30 (by decide))) (k1_pay17 (a 31 (by decide))) (k1_pay18 (bb 31 (by decide))) : S64x64.Idx → EReal) (ix2 p b)
      = ∑ j : Fin 256, Ideal.exp (-(0 + p1_d (a 0 (by decide)) (bb 0 (by decide)) p j b
            + p1_d (a 1 (by decide)) (bb 1 (by decide)) p j b
            + p1_d (a 2 (by decide)) (bb 2 (by decide)) p j b
            + p1_d (a 3 (by decide)) (bb 3 (by decide)) p j b
            + p1_d (a 4 (by decide)) (bb 4 (by decide)) p j b
            + p1_d (a 5 (by decide)) (bb 5 (by decide)) p j b
            + p1_d (a 6 (by decide)) (bb 6 (by decide)) p j b
            + p1_d (a 7 (by decide)) (bb 7 (by decide)) p j b
            + p1_d (a 8 (by decide)) (bb 8 (by decide)) p j b
            + p1_d (a 9 (by decide)) (bb 9 (by decide)) p j b
            + p1_d (a 10 (by decide)) (bb 10 (by decide)) p j b
            + p1_d (a 11 (by decide)) (bb 11 (by decide)) p j b
            + p1_d (a 12 (by decide)) (bb 12 (by decide)) p j b
            + p1_d (a 13 (by decide)) (bb 13 (by decide)) p j b
            + p1_d (a 14 (by decide)) (bb 14 (by decide)) p j b
            + p1_d (a 15 (by decide)) (bb 15 (by decide)) p j b
            + p1_d (a 16 (by decide)) (bb 16 (by decide)) p j b
            + p1_d (a 17 (by decide)) (bb 17 (by decide)) p j b
            + p1_d (a 18 (by decide)) (bb 18 (by decide)) p j b
            + p1_d (a 19 (by decide)) (bb 19 (by decide)) p j b
            + p1_d (a 20 (by decide)) (bb 20 (by decide)) p j b
            + p1_d (a 21 (by decide)) (bb 21 (by decide)) p j b
            + p1_d (a 22 (by decide)) (bb 22 (by decide)) p j b
            + p1_d (a 23 (by decide)) (bb 23 (by decide)) p j b
            + p1_d (a 24 (by decide)) (bb 24 (by decide)) p j b
            + p1_d (a 25 (by decide)) (bb 25 (by decide)) p j b
            + p1_d (a 26 (by decide)) (bb 26 (by decide)) p j b
            + p1_d (a 27 (by decide)) (bb 27 (by decide)) p j b
            + p1_d (a 28 (by decide)) (bb 28 (by decide)) p j b
            + p1_d (a 29 (by decide)) (bb 29 (by decide)) p j b
            + p1_d (a 30 (by decide)) (bb 30 (by decide)) p j b
            + p1_d (a 31 (by decide)) (bb 31 (by decide)) p j b)) := by
  refine (p1_pay1 _ _ _ p b).trans (Finset.sum_congr rfl fun j _ => congrArg (fun t => Ideal.exp (-t)) ?_)
  rw [p1_pay16, p1_pay15, p1_pay13, p1_pay12, p1_pay10, p1_pay8, p1_pay6, p1_pay4, p1_pay2]

/-- A sum over 32 coordinates, written out from zero in coordinate order. -/
theorem p1_sum32 (f : Fin 32 → EReal) :
    ∑ k, f k = 0 + f ⟨0, by decide⟩ + f ⟨1, by decide⟩ + f ⟨2, by decide⟩ + f ⟨3, by decide⟩ + f ⟨4, by decide⟩ + f ⟨5, by decide⟩ + f ⟨6, by decide⟩ + f ⟨7, by decide⟩ + f ⟨8, by decide⟩ + f ⟨9, by decide⟩ + f ⟨10, by decide⟩ + f ⟨11, by decide⟩ + f ⟨12, by decide⟩ + f ⟨13, by decide⟩ + f ⟨14, by decide⟩ + f ⟨15, by decide⟩ + f ⟨16, by decide⟩ + f ⟨17, by decide⟩ + f ⟨18, by decide⟩ + f ⟨19, by decide⟩ + f ⟨20, by decide⟩ + f ⟨21, by decide⟩ + f ⟨22, by decide⟩ + f ⟨23, by decide⟩ + f ⟨24, by decide⟩ + f ⟨25, by decide⟩ + f ⟨26, by decide⟩ + f ⟨27, by decide⟩ + f ⟨28, by decide⟩ + f ⟨29, by decide⟩ + f ⟨30, by decide⟩ + f ⟨31, by decide⟩ := by
  simp only [Fin.sum_univ_castSucc, Fin.sum_univ_zero]
  rfl

/-- The value the second region's body stores, at row `p` (a query sample of the block) and feature `b`: the sum
    over all key samples `j` of `exp (−Σ_k |x0[p,k,b] − x1[j,k,b]|)`. -/
theorem stored1_apply (x0 : Vec Ideal S64x32x64 .f32) (x1 : Vec Ideal S256x32x64 .f32) (p : Fin 64) (b : Fin 64) :
    (stored1 (F := Ideal) x0 x1 : S64x64.Idx → EReal) (ix2 p b)
      = ∑ j : Fin 256, Ideal.exp (-(∑ k : Fin 32,
          max ((x0 : S64x32x64.Idx → EReal) (ix3 p k b) - (x1 : S256x32x64.Idx → EReal) (ix3 j k b))
              (-((x0 : S64x32x64.Idx → EReal) (ix3 p k b) - (x1 : S256x32x64.Idx → EReal) (ix3 j k b))))) := by
  refine (p1_core (fun k hk => View.ld x0 (rA k hk)) (fun k hk => View.ld x1 (rB k hk)) p b).trans ?_
  refine Finset.sum_congr rfl fun j _ => congrArg (fun t => Ideal.exp (-t)) ?_
  rw [p1_sum32]
  simp only [p1_d_ld]

end Cert.KernelIdeal.Hand

end
-- ==== Proof.KI.Value1.lean ====
import proofs.«162574_j79843442033274_1_alg».proof.Proof.KI.Region1
import proofs.«162574_j79843442033274_1_alg».proof.Proof.KI.Pay1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The re-laid feature array (sample, coordinate, feature) as the second region finds it. -/
abbrev feat1 (c : Dev nD) : S256x32x64.Idx → EReal := V c main_v2

/-- The zero offsets of the result block's one store. -/
theorem zero_off1 : (![0, 0] : Fin 2 → Nat) = fun _ => 0 := funext fun a => by fin_cases a <;> rfl

/-- The block indices at grid point `t`: the query window and the result window sit at block `t` of the sample
    axis and block 0 of the others; the key window sits at block 0 of every axis. -/
theorem blk_index1 : ∀ t : Fin cfg1.N,
    win1_0.index t (0 : Fin 3) = t.val ∧ win1_0.index t (1 : Fin 3) = 0 ∧ win1_0.index t (2 : Fin 3) = 0
  ∧ win1_1.index t (0 : Fin 3) = 0 ∧ win1_1.index t (1 : Fin 3) = 0 ∧ win1_1.index t (2 : Fin 3) = 0
  ∧ win1_2.index t (0 : Fin 2) = t.val ∧ win1_2.index t (1 : Fin 2) = 0 :=
  (by decide +kernel : ∀ t : Fin grid1.N, _)

/-- The query block at point `t` is samples `64 t … 64 t + 63` of the feature array: its entry `x` is the
    array's entry whose sample coordinate is `64 t + x₀` and whose other coordinates are `x`'s. -/
theorem query_blk_apply (c : Dev nD) (t : Fin cfg1.N) (x : S64x32x64.Idx) (i : S256x32x64.Idx)
    (h0 : (i 0).val = 64 * t.val + (x 0).val) (h1 : (i 1).val = (x 1).val) (h2 : (i 2).val = (x 2).val) :
    (iblk1 (F := Ideal) V c 0 t : S64x32x64.Idx → EReal) x = feat1 V c i := by
  obtain ⟨e0, e1, e2, -⟩ := blk_index1 t
  unfold iblk1
  rw [View.read_apply]
  show V c main_v2 _ = V c main_v2 _
  congr 1
  funext a
  apply Fin.ext
  match a with
  | ⟨0, _⟩ => show win1_0.index t (0 : Fin 3) * 64 + 1 * (x 0).val = (i 0).val; omega
  | ⟨1, _⟩ => show win1_0.index t (1 : Fin 3) * 32 + 1 * (x 1).val = (i 1).val; omega
  | ⟨2, _⟩ => show win1_0.index t (2 : Fin 3) * 64 + 1 * (x 2).val = (i 2).val; omega

/-- The key block at every point is the whole feature array. -/
theorem key_blk_apply (c : Dev nD) (t : Fin cfg1.N) (x : S256x32x64.Idx) :
    (iblk1 (F := Ideal) V c 1 t : S256x32x64.Idx → EReal) x = feat1 V c x := by
  obtain ⟨-, -, -, e0, e1, e2, -⟩ := blk_index1 t
  unfold iblk1
  rw [View.read_apply]
  show V c main_v2 _ = V c main_v2 _
  congr 1
  funext a
  apply Fin.ext
  match a with
  | ⟨0, _⟩ => show win1_1.index t (0 : Fin 3) * 256 + 1 * (x 0).val = (x 0).val; omega
  | ⟨1, _⟩ => show win1_1.index t (1 : Fin 3) * 32 + 1 * (x 1).val = (x 1).val; omega
  | ⟨2, _⟩ => show win1_1.index t (2 : Fin 3) * 64 + 1 * (x 2).val = (x 2).val; omega

/-- The kernel sum of a feature array `X` at sample `p` and feature `b`:
    `Σ_j exp (−Σ_k |X[p,k,b] − X[j,k,b]|)`, the absolute value written as `max d (−d)`. -/
def kernelSum1 (X : S256x32x64.Idx → EReal) (p : Fin 256) (b : Fin 64) : EReal :=
  ∑ j : Fin 256, Ideal.exp (-(∑ k : Fin 32,
    max (X (ix3 p k b) - X (ix3 j k b)) (-(X (ix3 p k b) - X (ix3 j k b)))))

/-- The kernel sums as one array over (sample, feature). -/
def kernelSumArr1 (X : S256x32x64.Idx → EReal) : S256x64.Idx → EReal := fun i => kernelSum1 X (i 0) (i 1)

/-- What the body stores at row `p` of its block is the kernel sum of `X` at sample `P`, as soon as row `p` of the
    query block is sample `P` of `X` and the key block is `X`. -/
theorem stored1_eq_kernelSum (X : S256x32x64.Idx → EReal) (x0 : Vec Ideal S64x32x64 .f32) (x1 : Vec Ideal S256x32x64 .f32)
    (p : Fin 64) (b : Fin 64) (P : Fin 256)
    (hx0 : ∀ k : Fin 32, (x0 : S64x32x64.Idx → EReal) (ix3 p k b) = X (ix3 P k b))
    (hx1 : ∀ (j : Fin 256) (k : Fin 32), (x1 : S256x32x64.Idx → EReal) (ix3 j k b) = X (ix3 j k b)) :
    (stored1 (F := Ideal) x0 x1 : S64x64.Idx → EReal) (ix2 p b) = kernelSum1 X P b := by
  refine (stored1_apply x0 x1 p b).trans ?_
  unfold kernelSum1
  simp only [hx0, hx1]

/-- What point `t` writes back is block `t` of the kernel sums of the feature array: row `p` of the block is
    sample `64 t + p`, on both sides. -/
theorem flushed1_2_eq (c : Dev nD) (t : Fin cfg1.N) :
    (dat1 (F := Ideal) V c).flushed 2 t = ((cfg1.win 2).blk t).view.read (Elt Ideal) (kernelSumArr1 (feat1 V c)) := by
  show (cfg1.win 2).cut (grid1.coords t) ((dat1 (F := Ideal) V c).after 2 t) = _
  rw [after1_2]
  unfold out1_2
  rw [View.canon_unit_zero zero_off1]
  obtain ⟨-, -, -, -, -, -, e0, e1⟩ := blk_index1 t
  funext y
  obtain ⟨p, q, rfl⟩ : ∃ (p : Fin 64) (q : Fin 64), y = ix2 p q := ⟨y 0, y 1, eq_ix2 y⟩
  have hN : t.val < 4 := lt_of_lt_of_eq t.isLt N_1
  have hP : 64 * t.val + p.val < 256 := by have := p.isLt; omega
  show (stored1 (F := Ideal) (iblk1 V c 0 t) (iblk1 V c 1 t) : S64x64.Idx → EReal) (ix2 p q)
     = kernelSumArr1 (feat1 V c) (((cfg1.win 2).blk t).view.emb (ix2 p q))
  refine (stored1_eq_kernelSum (feat1 V c) (iblk1 V c 0 t) (iblk1 V c 1 t) p q ⟨64 * t.val + p.val, hP⟩ ?_ ?_).trans ?_
  · intro k
    exact query_blk_apply V c t (ix3 p k q) (ix3 ⟨64 * t.val + p.val, hP⟩ k q) rfl rfl rfl
  · intro j k
    exact key_blk_apply V c t (ix3 j k q)
  · unfold kernelSumArr1
    have h0 : (⟨64 * t.val + p.val, hP⟩ : Fin 256) = ((cfg1.win 2).blk t).view.emb (ix2 p q) 0 :=
      Fin.ext (by show 64 * t.val + p.val = win1_2.index t (0 : Fin 2) * 64 + 1 * p.val; omega)
    have h1 : q = ((cfg1.win 2).blk t).view.emb (ix2 p q) 1 :=
      Fin.ext (by show q.val = win1_2.index t (1 : Fin 2) * 64 + 1 * q.val; omega)
    exact congrArg₂ (kernelSum1 (feat1 V c)) h0 h1

/-- An index of the result array is in point `t`'s block iff each coordinate is in the block's range on its axis. -/
theorem mem_blk1_2 (t : Fin cfg1.N) (i : S256x64.Idx) :
    i ∈ ((cfg1.win 2).blk t).view.set ↔ ∀ a : Fin 2, win1_2.index t a * S64x64.size a ≤ (i a).val ∧ (i a).val < win1_2.index t a * S64x64.size a + S64x64.size a := by
  show i ∈ ((View.whole main_v3).slice (win1_2.rect t)).set ↔ _
  rw [View.set_slice_whole, Rect.mem_set_unit]
  exact Iff.rfl

/-- The four blocks tile the result array: row `r` lies in the block of point `r / 64`, and every point writes back. -/
theorem cover1_2_arr (i : S256x64.Idx) : ∃ t : Fin cfg1.N, (cfg1.win 2).flush t = true ∧ i ∈ ((cfg1.win 2).blk t).view.set := by
  have hi0 : (i 0).val < 256 := (i 0).isLt
  have hi1 : (i 1).val < 64 := (i 1).isLt
  let t : Fin cfg1.N := ⟨(i 0).val / 64, by rw [show cfg1.N = 4 from N_1]; omega⟩
  obtain ⟨-, -, -, -, -, -, e0, e1⟩ := blk_index1 t
  have ht : t.val = (i 0).val / 64 := rfl
  refine ⟨t, flush1_2 t, ?_⟩
  rw [mem_blk1_2]
  intro a
  match a with
  | ⟨0, _⟩ => show win1_2.index t (0 : Fin 2) * 64 ≤ (i 0).val ∧ (i 0).val < win1_2.index t (0 : Fin 2) * 64 + 64; omega
  | ⟨1, _⟩ => show win1_2.index t (1 : Fin 2) * 64 ≤ (i 1).val ∧ (i 1).val < win1_2.index t (1 : Fin 2) * 64 + 64; omega

/-- So the result array ends holding the kernel sums of the feature array. -/
theorem arr1_eq (c : Dev nD) : (dat1 (F := Ideal) V c).arrAt 2 cfg1.N = kernelSumArr1 (feat1 V c) :=
  (dat1 (F := Ideal) V c).arrAt_eq_of_cover 2 (kernelSumArr1 (feat1 V c)) (fun t _ => flushed1_2_eq V c t) cover1_2_arr

/-- After the second region the result array holds, at sample `p` and feature `b`, the sum over all samples `j` of
    `exp (−Σ_k |X[p,k,b] − X[j,k,b]|)`, `X` the re-laid feature array as the region found it. -/
theorem arr1_final (c : Dev nD) (p : Fin 256) (b : Fin 64) :
    ((dat1 (F := Ideal) V c).arrAt 2 cfg1.N : S256x64.Idx → EReal) (ix2 p b)
      = ∑ j : Fin 256, Ideal.exp (-(∑ k : Fin 32,
          max (feat1 V c (ix3 p k b) - feat1 V c (ix3 j k b)) (-(feat1 V c (ix3 p k b) - feat1 V c (ix3 j k b))))) := by
  rw [arr1_eq]
  rfl

end Cert.KernelIdeal.Hand

end
-- ==== Proof.KI.Host.lean ====
import proofs.«162574_j79843442033274_1_alg».proof.Proof.Gen.KernelIdeal.Launch
import proofs.«162574_j79843442033274_1_alg».proof.Proof.Spec
import Idealize.ShloMosaic.Lib.Pipeline.Value
import Idealize.ShloMosaic.Lib.StableHlo.Run
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

/-- The first host stretch as whole arrays: the projection reshaped to features by coordinates, then its last two
    axes swapped. -/
theorem host1_eq (W : Valuation τ sig (Elt Ideal)) :
    (StableHlo.after (hostOps1 (F := Ideal)) W (Proc.devRef .tc main_v2) : S256x32x64.Idx → EReal)
      = transpose S256x32x64 [0, 2, 1]
          (shapeCast S256x64x32 (W (Proc.devRef .tc main_v0) : S256x2048.Idx → EReal) shapeCasts_S256x2048_S256x64x32)
          transposes_S256x64x32_S256x32x64_0_2_1 := by
  show StableHlo.after hostOps1 _ (Proc.devRef .tc main_v2) = _
  after_results
  rfl

/-- The last host stretch as whole arrays: the input and the similarities joined along the columns. -/
theorem host2_eq (W : Valuation τ sig (Elt Ideal)) :
    (StableHlo.after (hostOps2 (F := Ideal)) W (Proc.devRef .tc main_v4) : S256x2112.Idx → EReal)
      = concatenate S256x2112 1 [⟨S256x2048, (W (Proc.devRef .tc main_arg0) : S256x2048.Idx → EReal)⟩, ⟨S256x64, (W (Proc.devRef .tc main_v3) : S256x64.Idx → EReal)⟩]
          concatenates_S256x2048_S256x64_S256x2112_d1 := by
  show StableHlo.after hostOps2 _ (Proc.devRef .tc main_v4) = _
  after_results

/-- A 256 × 2048 array reshaped to 256 × 64 × 32 and its last two axes swapped reads, at (n, k, b), the array at
    row n, column 32 b + k: the swap reads the reshaped array at (n, b, k), whose row-major position
    (64 n + b) · 32 + k is 2048 n + (32 b + k). -/
theorem relay_apply (x : S256x2048.Idx → EReal) (n : Fin 256) (k : Fin 32) (b : Fin 64) :
    transpose S256x32x64 [0, 2, 1] (shapeCast S256x64x32 x shapeCasts_S256x2048_S256x64x32)
        transposes_S256x64x32_S256x32x64_0_2_1 (ix3 n k b)
      = x (ix2 n (Cert.Spec.col b k)) := by
  refine (transpose_ix3_021_apply (m := 256) (a := 64) (b := 32) _ transposes_S256x64x32_S256x32x64_0_2_1 n k b).trans ?_
  refine shapeCast_apply x shapeCasts_S256x2048_S256x64x32 (ix3 n b k) (ix2 n (Cert.Spec.col b k)) ?_
  rw [Shape.rowMajor_val_two, Shape.rowMajor_val_three]
  show n.val * 2048 + (b.val * 32 + k.val) = (n.val * 64 + b.val) * 32 + k.val
  omega

/-- Two arrays of 256 rows, 2048 and 64 columns wide, joined along the columns read, at (i, q), the first at (i, q)
    when q < 2048 and the second at (i, q − 2048) otherwise. -/
theorem join_apply (x : S256x2048.Idx → EReal) (y : S256x64.Idx → EReal) (i : Fin 256) (q : Fin 2112) :
    concatenate S256x2112 1 [⟨S256x2048, x⟩, ⟨S256x64, y⟩] concatenates_S256x2048_S256x64_S256x2112_d1 (ix2 i q)
      = if h : q.val < 2048 then x (ix2 i ⟨q.val, h⟩) else y (ix2 i ⟨q.val - 2048, by omega⟩) := by
  by_cases h : q.val < 2048
  · rw [dif_pos h]
    refine concatenate_pair_apply_left (1 : Fin 2) x y concatenates_S256x2048_S256x64_S256x2112_d1 (ix2 i q) rfl (ix2 i ⟨q.val, h⟩) ?_
    intro b
    match b with
    | ⟨0, _⟩ => rfl
    | ⟨1, _⟩ => rfl
  · rw [dif_neg h]
    refine concatenate_pair_apply_right (1 : Fin 2) x y concatenates_S256x2048_S256x64_S256x2112_d1 (ix2 i q) rfl rfl (ix2 i ⟨q.val - 2048, by omega⟩) ?_ ?_
    · intro b hb
      match b, hb with
      | ⟨0, _⟩, _ => rfl
      | ⟨1, _⟩, hb => exact absurd rfl hb
    · show (q.val - 2048) + 2048 = q.val
      omega

/-- The host stretch between the regions re-lays the projection: entry `(n, k, b)` of the re-laid array is the
    projection's row `n` at the flat column of feature `b`, coordinate `k`. -/
theorem host1_apply (W : Valuation τ sig (Elt Ideal)) (n : Fin 256) (k : Fin 32) (b : Fin 64) :
    (StableHlo.after (hostOps1 (F := Ideal)) W (Proc.devRef .tc main_v2) : S256x32x64.Idx → EReal) (ix3 n k b)
      = (W (Proc.devRef .tc main_v0) : S256x2048.Idx → EReal) (ix2 n (Cert.Spec.col b k)) :=
  (congrFun (host1_eq W) (ix3 n k b)).trans (relay_apply _ n k b)

/-- The last host stretch joins the input rows and the similarities side by side. -/
theorem host2_apply (W : Valuation τ sig (Elt Ideal)) (i : Fin 256) (q : Fin 2112) :
    (StableHlo.after (hostOps2 (F := Ideal)) W (Proc.devRef .tc main_v4) : S256x2112.Idx → EReal) (ix2 i q)
      = if h : q.val < 2048 then (W (Proc.devRef .tc main_arg0) : S256x2048.Idx → EReal) (ix2 i ⟨q.val, h⟩)
        else (W (Proc.devRef .tc main_v3) : S256x64.Idx → EReal) (ix2 i ⟨q.val - 2048, by omega⟩) :=
  (congrFun (host2_eq W) (ix2 i q)).trans (join_apply _ _ i q)

end Cert.KernelIdeal.Hand

end
-- ==== Proof.KI.Bridge.lean ====
/- The kernel program's result is the specification's: the last valuation of the run's fold, read at the
   result array, is row `i` of the first argument followed by the 64 similarities of the projection.
   The join reads its left part off the untouched first argument and its right part off the second
   region's result; that is the similarity of the re-laid features, which the host re-laying reads off
   the first region's result, the projection. -/
import proofs.«162574_j79843442033274_1_alg».proof.Proof.KI.Run
import proofs.«162574_j79843442033274_1_alg».proof.Proof.KI.Value0
import proofs.«162574_j79843442033274_1_alg».proof.Proof.KI.Value1
import proofs.«162574_j79843442033274_1_alg».proof.Proof.KI.Host
import proofs.«162574_j79843442033274_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The two arguments as the run finds them, on plain indices. -/
abbrev argF (c : Dev nD) : Fin 256 → Fin 2048 → EReal := fun a k => (m ((c : Thread nD τ).loc main_arg0) : S256x2048.Idx → EReal) (ix2 a k)
abbrev argT (c : Dev nD) : Fin 2048 → Fin 2048 → EReal := fun k b => (m ((c : Thread nD τ).loc main_arg1) : S2048x2048.Idx → EReal) (ix2 k b)

/-- The re-laid features the second region finds are the projection's entries. -/
theorem feat_eq (c : Dev nD) (n : Fin 256) (k : Fin 32) (b : Fin 64) :
    feat1 (V2 m) c (ix3 n k b) = Cert.Spec.proj (argF m c) (argT m c) n (Cert.Spec.col b k) := by
  refine (host1_apply (W1 m c) n k b).trans ?_
  rw [W1_main_v0]
  exact arr0_final (V0 m) c n (Cert.Spec.col b k)

/-- The second region's sums over the re-laid features are the specification's similarities of the projection. -/
theorem sim_eq (c : Dev nD) (i : Fin 256) (b : Fin 64) :
    (∑ j : Fin 256, Ideal.exp (-(∑ k : Fin 32,
        max (feat1 (V2 m) c (ix3 i k b) - feat1 (V2 m) c (ix3 j k b)) (-(feat1 (V2 m) c (ix3 i k b) - feat1 (V2 m) c (ix3 j k b))))))
      = Cert.Spec.sim (Cert.Spec.proj (argF m c) (argT m c)) i b := by
  unfold Cert.Spec.sim Cert.Spec.dist
  refine Finset.sum_congr rfl fun j _ => ?_
  refine congrArg (fun x => Ideal.exp (-x)) (Finset.sum_congr rfl fun k _ => ?_)
  rw [feat_eq m c i k b, feat_eq m c j k b]

/-- The result array at the end, index by index. -/
theorem W4_out (c : Dev nD) (i : Fin 256) (q : Fin 2112) :
    (W4 m c (Proc.devRef .tc main_v4) : S256x2112.Idx → EReal) (ix2 i q) = Cert.Spec.out (argF m c) (argT m c) i q := by
  refine (host2_apply (W3 m c) i q).trans ?_
  unfold Cert.Spec.out
  by_cases h : q.val < 2048
  · rw [dif_pos h, dif_pos h]
    exact congrFun ((W3_of_ne m c main_arg0 (by decide)).trans
      ((hostOps1_writes_not main_arg0 (by decide) (by decide) (W1 m c)).trans (W1_of_ne m c main_arg0 (by decide)))) _
  · rw [dif_neg h, dif_neg h, W3_main_v3]
    exact (arr1_final (V2 m) c i ⟨q.val - 2048, by omega⟩).trans (sim_eq m c i _)

/-- The result array the kernel program ends with, as one function of the launch memory. -/
def outArr (c : Dev nD) : Buf (Elt Ideal) ((c.tc : Thread nD τ).loc main_v4) :=
  fun idx => Cert.Spec.out (argF m c) (argT m c) (idx 0) (idx 1)

theorem W4_eq_outArr (c : Dev nD) : W4 m c (Proc.devRef .tc main_v4) = outArr m c := by
  funext idx
  obtain ⟨i, q, rfl⟩ : ∃ (i : Fin 256) (q : Fin 2112), idx = ix2 i q := ⟨idx 0, idx 1, eq_ix2 idx⟩
  exact W4_out m c i q

/-- THE VALUE RUN: every weakly fair execution of the kernel program terminates with the result array at `outArr`
    and both arguments as launched. -/
theorem run_value : θ_run defs (onTc (τ := τ) (main (F := Ideal))) ⟨m, fun _ => 0, ρ⟩ (fun r => ∀ c : Dev nD,
      r.2.mem ((c.tc : Thread nD τ).loc main_v4) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v4 (by decide))).trans (W4_eq_outArr m c),
     (h c _ (mem_uc main_arg0 (by decide))).trans (W4_arg m main_arg0 (by decide) (by decide) (by decide) (by decide) (by decide) c),
     (h c _ (mem_uc main_arg1 (by decide))).trans (W4_arg m main_arg1 (by decide) (by decide) (by decide) (by decide) (by decide) c)⟩)
    (run_all m ρ)

end Cert.KernelIdeal.Hand

end
-- ==== Proof.Ref.lean ====
/- The reference program's result, read index by index: row `i` of the result is row `i` of the
   first argument followed by the 64 similarities of the projection — the specification's `out`. -/
import proofs.«162574_j79843442033274_1_alg».proof.Proof.Gen.ReferenceIdeal.Run
import proofs.«162574_j79843442033274_1_alg».proof.Proof.Gen.ReferenceIdeal.Read
import proofs.«162574_j79843442033274_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.SL.Sem
open Idealize.ShloMosaic.ValueIdx

/-- The projection of the first argument by the second, in the specification's words. -/
abbrev projM (x0 : (⟨S256x2048, .f32⟩ : BufTy).Contents (Elt Ideal)) (x1 : (⟨S2048x2048, .f32⟩ : BufTy).Contents (Elt Ideal)) :
    Fin 256 → Fin 2048 → EReal :=
  Cert.Spec.proj (fun a k => (x0 : S256x2048.Idx → EReal) (ix2 a k)) (fun k b => (x1 : S2048x2048.Idx → EReal) (ix2 k b))

/-- The matrix product at row `a`, column `j` is the projection there. -/
theorem v0_at (x0 : (⟨S256x2048, .f32⟩ : BufTy).Contents (Elt Ideal)) (x1 : (⟨S2048x2048, .f32⟩ : BufTy).Contents (Elt Ideal))
    (a : Fin 256) (j : Fin 2048) :
    (val_main_v0 (F := Ideal) x0 x1 : S256x2048.Idx → EReal) (ix2 a j) = projM x0 x1 a j := by
  rw [val_main_v0_apply]
  show _ = ∑ k : Fin 2048, _
  refine Finset.sum_congr rfl fun k _ => ?_
  have el : lidx_main_v0 (ix2 a j) k = ix2 a k :=
    funext fun d => Fin.ext (by match d with | ⟨0, _⟩ => rfl | ⟨1, _⟩ => rfl)
  have er : ridx_main_v0 (ix2 a j) k = ix2 k j :=
    funext fun d => Fin.ext (by match d with | ⟨0, _⟩ => rfl | ⟨1, _⟩ => rfl)
  rw [el, er]

/-- The reshaped product at sample `a`, feature `b`, coordinate `c` is the projection at flat column `32 b + c`. -/
theorem v1_at (x0 : (⟨S256x2048, .f32⟩ : BufTy).Contents (Elt Ideal)) (x1 : (⟨S2048x2048, .f32⟩ : BufTy).Contents (Elt Ideal))
    (a : Fin 256) (b : Fin 64) (c : Fin 32) :
    (val_main_v1 (F := Ideal) x0 x1 : S256x64x32.Idx → EReal) (ix3 a b c) = projM x0 x1 a (Cert.Spec.col b c) := by
  rw [val_main_v1_apply]
  have e : idx_main_v1 (ix3 a b c) = ix2 a (Cert.Spec.col b c) :=
    funext fun d => Fin.ext (by
      have ha := a.isLt; have hb := b.isLt; have hc := c.isLt
      match d with
      | ⟨0, _⟩ => show ((a.val * 64 + b.val) * 32 + c.val) / 2048 = a.val; omega
      | ⟨1, _⟩ => show ((a.val * 64 + b.val) * 32 + c.val) % 2048 = b.val * 32 + c.val; omega)
  rw [e, v0_at]

/-- The absolute difference at `(a, b', bb, c)`: sample `b'` less sample `a`, within feature `bb`, coordinate `c`. -/
theorem v7_at (x0 : (⟨S256x2048, .f32⟩ : BufTy).Contents (Elt Ideal)) (x1 : (⟨S2048x2048, .f32⟩ : BufTy).Contents (Elt Ideal))
    (a b' : Fin 256) (bb : Fin 64) (c : Fin 32) :
    (val_main_v7 (F := Ideal) x0 x1 : S256x256x64x32.Idx → EReal) (ix4 a b' bb c)
      = max (projM x0 x1 b' (Cert.Spec.col bb c) - projM x0 x1 a (Cert.Spec.col bb c))
          (-(projM x0 x1 b' (Cert.Spec.col bb c) - projM x0 x1 a (Cert.Spec.col bb c))) := by
  rw [val_main_v7_apply, val_main_v6_apply, val_main_v4_apply, val_main_v5_apply, val_main_v2_apply, val_main_v3_apply]
  have e4 : idx_main_v2 (idx_main_v4 (ix4 a b' bb c)) = ix3 b' bb c :=
    funext fun d => Fin.ext (by match d with | ⟨0, _⟩ => rfl | ⟨1, _⟩ => rfl | ⟨2, _⟩ => rfl)
  have e5 : idx_main_v3 (idx_main_v5 (ix4 a b' bb c)) = ix3 a bb c :=
    funext fun d => Fin.ext (by match d with | ⟨0, _⟩ => rfl | ⟨1, _⟩ => rfl | ⟨2, _⟩ => rfl)
  rw [e4, e5, v1_at, v1_at]
  rfl

/-- The sum over the 32 coordinates: the L1 distance of samples `b'` and `a` within feature `bb`. -/
theorem v8_at (x0 : (⟨S256x2048, .f32⟩ : BufTy).Contents (Elt Ideal)) (x1 : (⟨S2048x2048, .f32⟩ : BufTy).Contents (Elt Ideal))
    (a b' : Fin 256) (bb : Fin 64) :
    (val_main_v8 (F := Ideal) x0 x1 : S256x256x64.Idx → EReal) (ix3 a b' bb) = Cert.Spec.dist (projM x0 x1) b' a bb := by
  rw [val_main_v8_apply, val_main_cst_apply]
  simp only [Ideal.ofBits_def, Ideal.ofBits_zero_f32, zero_add]
  show _ = ∑ c : Fin 32, _
  refine Finset.sum_congr rfl fun c _ => ?_
  have e : idx_main_v8 (ix3 a b' bb) c = ix4 a b' bb c :=
    funext fun d => Fin.ext (by match d with | ⟨0, _⟩ => rfl | ⟨1, _⟩ => rfl | ⟨2, _⟩ => rfl | ⟨3, _⟩ => rfl)
  rw [e, v7_at]

/-- The sum over the subtrahend's sample of the exponentials: the similarity of sample `i` within feature `b`. -/
theorem v11_at (x0 : (⟨S256x2048, .f32⟩ : BufTy).Contents (Elt Ideal)) (x1 : (⟨S2048x2048, .f32⟩ : BufTy).Contents (Elt Ideal))
    (i : Fin 256) (b : Fin 64) :
    (val_main_v11 (F := Ideal) x0 x1 : S256x64.Idx → EReal) (ix2 i b) = Cert.Spec.sim (projM x0 x1) i b := by
  rw [val_main_v11_apply, val_main_cst_0_apply]
  simp only [Ideal.ofBits_def, Ideal.ofBits_zero_f32, zero_add]
  show _ = ∑ k : Fin 256, _
  refine Finset.sum_congr rfl fun k _ => ?_
  have e : idx_main_v11 (ix2 i b) k = ix3 k i b :=
    funext fun d => Fin.ext (by match d with | ⟨0, _⟩ => rfl | ⟨1, _⟩ => rfl | ⟨2, _⟩ => rfl)
  rw [val_main_v10_apply, val_main_v9_apply, e, v8_at]
  rfl

/-- The reference's result at row `i`, column `q`, is the specification's. -/
theorem ref_out (x0 : (⟨S256x2048, .f32⟩ : BufTy).Contents (Elt Ideal)) (x1 : (⟨S2048x2048, .f32⟩ : BufTy).Contents (Elt Ideal))
    (i : Fin 256) (q : Fin 2112) :
    (val_main_v12 (F := Ideal) x0 x1 : S256x2112.Idx → EReal) (ix2 i q)
      = Cert.Spec.out (fun a k => (x0 : S256x2048.Idx → EReal) (ix2 a k)) (fun k b => (x1 : S2048x2048.Idx → EReal) (ix2 k b)) i q := by
  unfold Cert.Spec.out
  by_cases h : q.val < 2048
  · rw [dif_pos h]
    exact concatenate_pair_apply_left (1 : Fin S256x2112.rank) x0 (val_main_v11 (F := Ideal) x0 x1)
      concatenates_S256x2048_S256x64_S256x2112_d1 (ix2 i q) rfl (ix2 i ⟨q.val, h⟩)
      (fun b => by match b with | ⟨0, _⟩ => rfl | ⟨1, _⟩ => rfl)
  · rw [dif_neg h]
    refine (concatenate_pair_apply_right (1 : Fin S256x2112.rank) x0 (val_main_v11 (F := Ideal) x0 x1)
      concatenates_S256x2048_S256x64_S256x2112_d1 (ix2 i q) rfl rfl (ix2 i ⟨q.val - 2048, by omega⟩)
      (fun b hb => by match b with | ⟨0, _⟩ => rfl | ⟨1, _⟩ => exact absurd rfl hb)
      (by show (q.val - 2048) + 2048 = q.val; omega)).trans ?_
    exact v11_at x0 x1 i ⟨q.val - 2048, by omega⟩

end Cert.ReferenceIdeal.RefValue

end
-- ==== Proof.lean ====
/- The certificate of the pairwise-similarity kernel against its reference, over the extended reals.
   Both programs compute, for inputs f [256, 2048] and T [2048, 2048]: the projection M = f · T, read as
   64 features of 32 coordinates per sample; for each sample i and feature b the sum over all samples j of
   exp (− Σ_c |M[i,b,c] − M[j,b,c]|); and the rows of f joined with those 64 sums (Proof/Spec.lean).
   The kernel program is two pipelined kernel regions around two host stretches; its three frames and
   its result come from one run theorem per float instance (Proof/K/Run.lean, Proof/KI/Run.lean), whose
   last buffer contents are read index by index (Proof/KI/Value0.lean, Value1.lean, Host.lean,
   Bridge.lean); the reference's result is read off its run one operation at a time (Proof/Ref.lean).
   The two sides differ only in the grouping of the sums and in `0 − x` against `−x`, which agree on
   the extended reals with no finiteness: the precondition is not used. The idealization rewrote
   nothing, so its conjunct is trivial. -/
import proofs.«162574_j79843442033274_1_alg».proof.Defs
import proofs.«162574_j79843442033274_1_alg».proof.Proof.Gen.Kernel
import proofs.«162574_j79843442033274_1_alg».proof.Proof.Gen.KernelIdeal
import proofs.«162574_j79843442033274_1_alg».proof.Proof.Gen.ReferenceIdeal
import proofs.«162574_j79843442033274_1_alg».proof.Proof.Gen.Pre_finite_inputs
import proofs.«162574_j79843442033274_1_alg».proof.Proof.Gen.ReferenceIdeal.Run
import proofs.«162574_j79843442033274_1_alg».proof.Proof.Gen.ReferenceIdeal.Read
import proofs.«162574_j79843442033274_1_alg».proof.Proof.K.Run
import proofs.«162574_j79843442033274_1_alg».proof.Proof.KI.Run
import proofs.«162574_j79843442033274_1_alg».proof.Proof.KI.Bridge
import proofs.«162574_j79843442033274_1_alg».proof.Proof.Ref
import Idealize.ShloMosaic.Adequacy
import Idealize.ShloMosaic.Init

noncomputable section

namespace Cert.Proof

open Idealize.ShloMosaic Idealize.SL.Sem Idealize.ShloMosaic.ValueIdx

/-- The word-level kernel program runs to the end and leaves its arguments as launched. -/
theorem frame_k : Cert.frame_Kernel := fun m ρ _ => Cert.Kernel.Hand.frame m ρ

/-- So does the idealized kernel program. -/
theorem frame_ki : Cert.frame_KernelIdeal := fun m ρ _ => Cert.KernelIdeal.Hand.frame m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the specification's array. -/
theorem algebraic : Cert.algebraic_KernelIdeal_ReferenceIdeal := by
  intro m ρ m' ρ' _ hagree
  refine ⟨fun c => Cert.KernelIdeal.Hand.outArr m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, (hagree c).1, (hagree c).2]
  funext idx
  obtain ⟨i, q, rfl⟩ : ∃ (i : Fin 256) (q : Fin 2112), idx = ix2 i q := ⟨idx 0, idx 1, eq_ix2 idx⟩
  exact Cert.ReferenceIdeal.RefValue.ref_out _ _ i q

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
